-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000 : Shape := ⟨1, ![50000]⟩
abbrev S2x1600000 : Shape := ⟨2, ![2, 1600000]⟩
abbrev S1600000 : Shape := ⟨1, ![1600000]⟩
abbrev S16x4 : Shape := ⟨2, ![16, 4]⟩
abbrev S132x64 : Shape := ⟨2, ![132, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S16x4 : S_.BroadcastsInDim S16x4 (![] : Fin 0 → Fin S16x4.rank)
  reducesTo_S16x4_S_d0_1 : S16x4.ReducesTo [0, 1] S_
  bcast_S_S132x64 : S_.BroadcastsInDim S132x64 (![] : Fin 0 → Fin S132x64.rank)
  reducesTo_S132x64_S_d0_1 : S132x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S64 .f32) (main_arg7 : FVec F S64x32 .f32) (main_arg8 : FVec F S32 .f32) (main_v13 : IVec S_ 1) (main_v16 : IVec S132x64 1) : IVec S_ 1 :=
  let main_c_5 : IVec S_ 1 := constantI S_ 1 1#1
  let main_v17 : IVec S_ 1 := (fun x v => Host.reduce IntOp.andi x v reducesTo_S132x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x128 .f32) (main_arg1 : IVec S50000 32) (main_arg2 : IVec S2x1600000 32) (main_arg3 : FVec F S1600000 .f32) (main_arg4 : FVec F S16x4 .f32) (main_arg5 : FVec F S132x64 .f32) (main_arg6 : FVec F S64 .f32) (main_arg7 : FVec F S64x32 .f32) (main_arg8 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S16x4 .f32 := Host.absf main_arg4
  let main_cst_2 : FVec F S_ .f32 := constant S_ .f32 0x7F800000#32
  let main_v10 : FVec F S16x4 .f32 := broadcastInDim S16x4 ![] bcast_S_S16x4 main_cst_2
  let main_v11 : IVec S16x4 1 := cmpf .olt main_v9 main_v10
  let main_c_3 : IVec S_ 1 := constantI S_ 1 1#1
  let main_v12 : IVec S_ 1 := (fun x v => Host.reduce IntOp.andi x v reducesTo_S16x4_S_d0_1 h_S_) main_v11 main_c_3
  let main_v13 : IVec S_ 1 := andi main_v8 main_v12
  let main_v14 : FVec F S132x64 .f32 := Host.absf main_arg5
  let main_cst_4 : FVec F S_ .f32 := constant S_ .f32 0x7F800000#32
  let main_v15 : FVec F S132x64 .f32 := broadcastInDim S132x64 ![] bcast_S_S132x64 main_cst_4
  let main_v16 : IVec S132x64 1 := cmpf .olt main_v14 main_v15
  fn_part1 (F := F) main_arg6 main_arg7 main_arg8 main_v13 main_v16
-- ==== Kernel.lean ====
abbrev S50000x128 : Shape := ⟨2, ![50000, 128]⟩
abbrev S50000 : Shape := ⟨1, ![50000]⟩
abbrev S2x1600000 : Shape := ⟨2, ![2, 1600000]⟩
abbrev S1600000 : Shape := ⟨1, ![1600000]⟩
abbrev S16x4 : Shape := ⟨2, ![16, 4]⟩
abbrev S132x64 : Shape := ⟨2, ![132, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S128x64 : Shape := ⟨2, ![128, 64]⟩
abbrev S4x64 : Shape := ⟨2, ![4, 64]⟩
abbrev S16x64 : Shape := ⟨2, ![16, 64]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S5000x16 : Shape := ⟨2, ![5000, 16]⟩
abbrev S1650000x64 : Shape := ⟨2, ![1650000, 64]⟩
abbrev S1x64 : Shape := ⟨2, ![1, 64]⟩
abbrev S50000x32 : Shape := ⟨2, ![50000, 32]⟩
abbrev S5000x32 : Shape := ⟨2, ![5000, 32]⟩
abbrev S1650000x32 : Shape := ⟨2, ![1650000, 32]⟩
abbrev S1x32 : Shape := ⟨2, ![1, 32]⟩

abbrev nBuf : Space → Nat
  | .hbm => 76
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000, .i32⟩
  | .hbm, ⟨2, _⟩ => ⟨S2x1600000, .i32⟩
  | .hbm, ⟨3, _⟩ => ⟨S1600000, .f32⟩
  | .hbm, ⟨4, _⟩ => ⟨S16x4, .f32⟩
  | .hbm, ⟨5, _⟩ => ⟨S132x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S50000, .i32⟩
  | .hbm, ⟨14, _⟩ => ⟨S1650000, .i32⟩
  | .hbm, ⟨15, _⟩ => ⟨S1650000, .i32⟩
  | .hbm, ⟨16, _⟩ => ⟨S_, .f32⟩
  | .hbm, ⟨17, _⟩ => ⟨S50000, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x1, .i32⟩
  | .hbm, ⟨33, _⟩ => ⟨S128x64, .f32⟩
  | .hbm, ⟨34, _⟩ => ⟨S4x64, .f32⟩
  | .hbm, ⟨35, _⟩ => ⟨S16x64, .f32⟩
  | .hbm, ⟨36, _⟩ => ⟨S50000x64, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000x64, .f32⟩
  | .hbm, ⟨46, _⟩ => ⟨S1650000x1, .f32⟩
  | .hbm, ⟨47, _⟩ => ⟨S1650000x64, .f32⟩
  | .hbm, ⟨48, _⟩ => ⟨S1650000x64, .f32⟩
  | .hbm, ⟨49, _⟩ => ⟨S_, .f32⟩
  | .hbm, ⟨50, _⟩ => ⟨S50000x64, .f32⟩
  | .hbm, ⟨51, _⟩ => ⟨S1650000x1, .i32⟩
  | .hbm, ⟨52, _⟩ => ⟨S50000x64, .f32⟩
  | .hbm, ⟨53, _⟩ => ⟨S1x64, .f32⟩
  | .hbm, ⟨54, _⟩ => ⟨S50000x32, .f32⟩
  | .hbm, ⟨55, _⟩ => ⟨S_, .i32⟩
  | .hbm, ⟨56, _⟩ => ⟨S1650000, .i32⟩
  | .hbm, ⟨57, _⟩ => ⟨S1650000, .i1⟩
  | .hbm, ⟨58, _⟩ => ⟨S_, .i32⟩
  | .hbm, ⟨59, _⟩ => ⟨S1650000, .i32⟩
  | .hbm, ⟨60, _⟩ => ⟨S1650000, .i32⟩
  | .hbm, ⟨61, _⟩ => ⟨S1650000, .i32⟩
  | .hbm, ⟨62, _⟩ => ⟨S1650000x1, .i32⟩
  | .hbm, ⟨63, _⟩ => ⟨S1650000x32, .f32⟩
  | .hbm, ⟨64, _⟩ => ⟨S1650000x1, .f32⟩
  | .hbm, ⟨65, _⟩ => ⟨S1650000x32, .f32⟩
  | .hbm, ⟨66, _⟩ => ⟨S1650000x32, .f32⟩
  | .hbm, ⟨67, _⟩ => ⟨S_, .f32⟩
  | .hbm, ⟨68, _⟩ => ⟨S50000x32, .f32⟩
  | .hbm, ⟨69, _⟩ => ⟨S1650000x1, .i32⟩
  | .hbm, ⟨70, _⟩ => ⟨S50000x32, .f32⟩
  | .hbm, ⟨71, _⟩ => ⟨S50000x32, .f32⟩
  | .hbm, ⟨72, _⟩ => ⟨S50000x32, .f32⟩
  | .hbm, ⟨73, _⟩ => ⟨S1x32, .f32⟩
  | .hbm, ⟨74, _⟩ => ⟨S50000x32, .f32⟩
  | .hbm, ⟨75, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S5000x1, .i32⟩
  | .local _ .vmem, ⟨3, _⟩ => ⟨S5000x1, .i32⟩
  | .local _ .vmem, ⟨4, _⟩ => ⟨S16x64, .f32⟩
  | .local _ .vmem, ⟨5, _⟩ => ⟨S128x64, .f32⟩
  | .local _ .vmem, ⟨6, _⟩ => ⟨S5000x1, .f32⟩
  | .local _ .vmem, ⟨7, _⟩ => ⟨S5000x1, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S1x64, .f32⟩
  | .local _ .vmem, ⟨15, _⟩ => ⟨S64x32, .f32⟩
  | .local _ .vmem, ⟨16, _⟩ => ⟨S5000x32, .f32⟩
  | .local _ .vmem, ⟨17, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  slices_S132x64_S128x64_0_0 : S132x64.Slices ![0, 0] S128x64
  slices_S132x64_S4x64_128_0 : S132x64.Slices ![128, 0] S4x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x16_d1_w32 : S5000x16.Iotas .tc 32 [1]
  broadcasts_S5000x1_S5000x16 : S5000x1.Broadcasts S5000x16
  natLt_1_32 : 1 < 32
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S1650000x1_S1650000_n_0_0_1_wf : ScatterDims.WF S50000 S1650000x1 S1650000 [] [0] [0] 1
  dot_S16x4_S4x64_S16x64_1_0_0_1_n_n_wf : DotDims.WF S16x4 S4x64 S16x64 [1] [0] [0] [1] [] []
  dot_S5000x16_S16x64_S5000x64_1_0_0_1_n_n_wf : DotDims.WF S5000x16 S16x64 S5000x64 [1] [0] [0] [1] [] []
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x32_S5000x32_1_0_0_1_n_n_wf : DotDims.WF S5000x64 S64x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .i32 = 32 ∨ (Rect.block (s := S50000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S16x4_S4x64_S16x64_1_0_0_1_n_n : DotDims S16x4 S4x64 S16x64 where
  lhsContracting := [1]
  rhsContracting := [0]
  lhsNonContracting := [0]
  rhsNonContracting := [1]
  lhsBatch := []
  rhsBatch := []
  wf := dot_S16x4_S4x64_S16x64_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000 : Shape := ⟨1, ![50000]⟩
abbrev S2x1600000 : Shape := ⟨2, ![2, 1600000]⟩
abbrev S1600000 : Shape := ⟨1, ![1600000]⟩
abbrev S16x4 : Shape := ⟨2, ![16, 4]⟩
abbrev S132x64 : Shape := ⟨2, ![132, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1650000 : Shape := ⟨1, ![1650000]⟩
abbrev S_ : Shape := ⟨0, ![]⟩
abbrev S50000x1 : Shape := ⟨2, ![50000, 1]⟩
abbrev S50000x4 : Shape := ⟨2, ![50000, 4]⟩
abbrev S50000x132 : Shape := ⟨2, ![50000, 132]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x32 : Shape := ⟨2, ![50000, 32]⟩
abbrev S1650000x32 : Shape := ⟨2, ![1650000, 32]⟩
abbrev S1x32 : Shape := ⟨2, ![1, 32]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S50000, .i32⟩
  | 2 => ⟨S2x1600000, .i32⟩
  | 3 => ⟨S1600000, .f32⟩
  | 4 => ⟨S16x4, .f32⟩
  | 5 => ⟨S132x64, .f32⟩
  | 6 => ⟨S64, .f32⟩
  | 7 => ⟨S64x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S50000, .i32⟩
  | 14 => ⟨S1650000, .i32⟩
  | 15 => ⟨S1650000, .i32⟩
  | 16 => ⟨S_, .f32⟩
  | 17 => ⟨S50000, .f32⟩
  | 18 => ⟨S1650000, .f32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x4, .f32⟩
  | 28 => ⟨S50000x132, .f32⟩
  | 29 => ⟨S_, .f32⟩
  | 30 => ⟨S50000, .f32⟩
  | 31 => ⟨S1650000x1, .i32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000, .f32⟩
  | 60 => ⟨S1650000, .f32⟩
  | 61 => ⟨S50000x64, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000x64, .f32⟩
  | 71 => ⟨S1650000x1, .f32⟩
  | 72 => ⟨S1650000x64, .f32⟩
  | 73 => ⟨S1650000x64, .f32⟩
  | 74 => ⟨S_, .f32⟩
  | 75 => ⟨S50000x64, .f32⟩
  | 76 => ⟨S1650000x1, .i32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S_, .f32⟩
  | 85 => ⟨S50000, .f32⟩
  | 86 => ⟨S1650000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000, .f32⟩
  | 105 => ⟨S1650000, .f32⟩
  | 106 => ⟨S_, .i32⟩
  | 107 => ⟨S1650000, .i32⟩
  | 108 => ⟨S1650000, .i1⟩
  | 109 => ⟨S_, .i32⟩
  | 110 => ⟨S1650000, .i32⟩
  | 111 => ⟨S1650000, .i32⟩
  | 112 => ⟨S1650000, .i32⟩
  | 113 => ⟨S1650000x1, .i32⟩
  | 114 => ⟨S1650000, .f32⟩
  | 115 => ⟨S1650000, .f32⟩
  | 116 => ⟨S50000x32, .f32⟩
  | 117 => ⟨S_, .i32⟩
  | 118 => ⟨S1650000, .i32⟩
  | 119 => ⟨S1650000, .i1⟩
  | 120 => ⟨S_, .i32⟩
  | 121 => ⟨S1650000, .i32⟩
  | 122 => ⟨S1650000, .i32⟩
  | 123 => ⟨S1650000, .i32⟩
  | 124 => ⟨S1650000x1, .i32⟩
  | 125 => ⟨S1650000x32, .f32⟩
  | 126 => ⟨S1650000x1, .f32⟩
  | 127 => ⟨S1650000x32, .f32⟩
  | _ => ⟨S50000x128, .f32⟩

abbrev hbmTy0_1 (i : Nat) : BufTy := match i % 128 with
  | 0 => ⟨S1650000x32, .f32⟩
  | 1 => ⟨S_, .f32⟩
  | 2 => ⟨S50000x32, .f32⟩
  | 3 => ⟨S1650000x1, .i32⟩
  | 4 => ⟨S50000x32, .f32⟩
  | 5 => ⟨S1x32, .f32⟩
  | 6 => ⟨S50000x32, .f32⟩
  | 7 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_call2_v0 : Ref sig .tc := ⟨.hbm, 93, rfl⟩
abbrev main_call2_v1 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_c_19 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x4_S50000x132_d1 : Shape.Concatenates [S50000x128, S50000x4] S50000x132 1
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S16x4_S50000x1_S50000x4_1_0_n_n_0_1_14_wf : GatherDims.WF S16x4 S50000x1 S50000x4 [1] [0] [] [0] [] 1 ![1, 4]
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x132_S132x64_S50000x64_1_0_0_1_n_n_wf : DotDims.WF S50000x132 S132x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x32_S50000x32_1_0_0_1_n_n_wf : DotDims.WF S50000x64 S64x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1

variable [Facts₀]

def gather_S16x4_S50000x1_S50000x4_1_0_n_n_0_1_14 : GatherDims S16x4 S50000x1 S50000x4 where
  offsetDims := [1]
  collapsedSliceDims := [0]
  operandBatchingDims := []
  startIndicesBatchingDims := []
  startIndexMap := [0]
  indexVectorDim := 1
  sliceSizes := ![1, 4]
  wf := gather_S16x4_S50000x1_S50000x4_1_0_n_n_0_1_14_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x132_S132x64_S50000x64_1_0_0_1_n_n : DotDims S50000x132 S132x64 S50000x64 where
  lhsContracting := [1]
  rhsContracting := [0]
  lhsNonContracting := [0]
  rhsNonContracting := [1]
  lhsBatch := []
  rhsBatch := []
  wf := dot_S50000x132_S132x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf

class Facts : Prop extends Facts₀ where

variable [Facts]
-- ==== Proof.Spec.lean ====
/-
  The two dense stages of the two-layer graph convolution, as functions of whole arrays, index by index,
  over the extended reals.

  Layer 1 maps a node's 128 features and its configuration id to 64 channels: the features times the first
  128 rows of the weight, plus the row of a 16 x 64 table that the id selects (written as a sum against a
  one-hot row), the whole scaled by the node's normalisation factor.  Layer 2 rescales the aggregated
  layer-1 output by the same factor, adds the bias, takes the positive part, multiplies by the second
  weight and scales again.
-/
import Idealize.ShloMosaic.PureOps.Ideal
import Idealize.ShloMosaic.Lib.ValueIdx

noncomputable section

open scoped BigOperators

namespace Cert.Gcn

open Idealize.ShloMosaic Idealize.ShloMosaic.ValueIdx

/-- A configuration id brought into the table's range: a negative id wraps once by 16, then the result is
    clamped to [0, 15] (signed). -/
def tableId (v : BitVec 32) : BitVec 32 :=
  IntOp.minsi 15#32 (IntOp.maxsi 0#32 (Scalar.select (IntOp.cmpi .slt v 0#32) (IntOp.addi v 16#32) v))

/-- Entry `c` of the one-hot row of an id: 1 where the id (in range) is `c`, else 0. -/
def onehot (v : BitVec 32) (c : Fin 16) : EReal :=
  ((((IntOp.cmpi .eq (tableId v) (BitVec.ofNat 32 c.val)).setWidth 32).toInt : ℝ) : EReal)

/-- Layer 1, dense stage: (x · W1[:128] + onehot(id) · T) · dinv, at node `n` and channel `q`. -/
def dense1 (X : (⟨2, ![50000, 128]⟩ : Shape).Idx → EReal) (CID : IVec ⟨2, ![50000, 1]⟩ 32)
    (T : (⟨2, ![16, 64]⟩ : Shape).Idx → EReal) (Wa : (⟨2, ![128, 64]⟩ : Shape).Idx → EReal)
    (D : (⟨2, ![50000, 1]⟩ : Shape).Idx → EReal) : (⟨2, ![50000, 64]⟩ : Shape).Idx → EReal := fun i =>
  ((∑ k : Fin 128, X (ix2 (⟨(i 0).val, idx2_lt0 i⟩ : Fin 50000) k) * Wa (ix2 k (⟨(i 1).val, idx2_lt1 i⟩ : Fin 64)))
    + (∑ c : Fin 16, onehot (CID (ix2 (⟨(i 0).val, idx2_lt0 i⟩ : Fin 50000) (0 : Fin 1))) c
        * T (ix2 c (⟨(i 1).val, idx2_lt1 i⟩ : Fin 64))))
  * D (ix2 (⟨(i 0).val, idx2_lt0 i⟩ : Fin 50000) (0 : Fin 1))

theorem dense1_apply (X : (⟨2, ![50000, 128]⟩ : Shape).Idx → EReal) (CID : IVec ⟨2, ![50000, 1]⟩ 32)
    (T : (⟨2, ![16, 64]⟩ : Shape).Idx → EReal) (Wa : (⟨2, ![128, 64]⟩ : Shape).Idx → EReal)
    (D : (⟨2, ![50000, 1]⟩ : Shape).Idx → EReal) (n : Fin 50000) (q : Fin 64) :
    dense1 X CID T Wa D (ix2 n q)
      = ((∑ k : Fin 128, X (ix2 n k) * Wa (ix2 k q)) + (∑ c : Fin 16, onehot (CID (ix2 n (0 : Fin 1))) c * T (ix2 c q)))
        * D (ix2 n (0 : Fin 1)) := rfl

/-- Layer 2, dense stage: (max(agg · dinv + b1, 0) · W2) · dinv, at node `n` and channel `q`. -/
def dense2 (A : (⟨2, ![50000, 64]⟩ : Shape).Idx → EReal) (D : (⟨2, ![50000, 1]⟩ : Shape).Idx → EReal)
    (B : (⟨2, ![1, 64]⟩ : Shape).Idx → EReal) (W : (⟨2, ![64, 32]⟩ : Shape).Idx → EReal) :
    (⟨2, ![50000, 32]⟩ : Shape).Idx → EReal := fun i =>
  (∑ k : Fin 64,
      max (A (ix2 (⟨(i 0).val, idx2_lt0 i⟩ : Fin 50000) k) * D (ix2 (⟨(i 0).val, idx2_lt0 i⟩ : Fin 50000) (0 : Fin 1))
            + B (ix2 (0 : Fin 1) k)) 0
        * W (ix2 k (⟨(i 1).val, idx2_lt1 i⟩ : Fin 32)))
  * D (ix2 (⟨(i 0).val, idx2_lt0 i⟩ : Fin 50000) (0 : Fin 1))

theorem dense2_apply (A : (⟨2, ![50000, 64]⟩ : Shape).Idx → EReal) (D : (⟨2, ![50000, 1]⟩ : Shape).Idx → EReal)
    (B : (⟨2, ![1, 64]⟩ : Shape).Idx → EReal) (W : (⟨2, ![64, 32]⟩ : Shape).Idx → EReal) (n : Fin 50000) (q : Fin 32) :
    dense2 A D B W (ix2 n q)
      = (∑ k : Fin 64, max (A (ix2 n k) * D (ix2 n (0 : Fin 1)) + B (ix2 (0 : Fin 1) k)) 0 * W (ix2 k q))
        * D (ix2 n (0 : Fin 1)) := rfl

end Cert.Gcn

end
-- ==== Proof.KHost.lean ====
/-
  The kernel program's result buffer as one composed function of the argument arrays.

  The program is five stretches of host operations around two kernel regions.  Reading the buffer contents
  back through the boundaries: the last stretch computes  dinv · aggregate(region 1's array) + b2 ; region 1's
  array is the layer-2 dense stage of the aggregate of region 0's array; region 0's array is the layer-1
  dense stage of the arguments; the edge lists with self-loops, the edge weights and the normalisation
  column dinv are computed by the first stretches and are not written again.
-/
import proofs.«413241_j45346264711627_3_alg».proof.Proof.Gen.KernelIdeal.Frame
import proofs.«413241_j45346264711627_3_alg».proof.Proof.Spec
import Idealize.ShloMosaic.Lib.StableHlo.Run
import Idealize.ShloMosaic.PureOps.Ideal
import Idealize.ShloMosaic.Lib.ValueIdx

set_option maxRecDepth 16384

noncomputable section

namespace Cert.KernelIdeal.HostVal

open Cert.KernelIdeal Cert.KernelIdeal.Gen Idealize.ShloMosaic Idealize.ShloMosaic.TcCoe Idealize.ShloMosaic.StableHlo
open Idealize.SL.Sem Idealize.ShloMosaic.Pipeline

/-! ## The stages, as functions of arrays -/

/-- The source nodes of the edges, self-loops appended. -/
def rowI (x2 : IVec S2x1600000 32) : IVec S1650000 32 :=
  concatenate S1650000 0 [⟨S1600000, shapeCast _ (extractStridedSlice S1x1600000 ![0, 0] x2 slices_S2x1600000_S1x1600000_0_0) shapeCasts_S1x1600000_S1600000⟩, ⟨S50000, iotaInDim S50000 32 0⟩] concatenates_S1600000_S50000_S1650000_d0
/-- The target nodes of the edges, self-loops appended. -/
def colI (x2 : IVec S2x1600000 32) : IVec S1650000 32 :=
  concatenate S1650000 0 [⟨S1600000, shapeCast _ (extractStridedSlice S1x1600000 ![1, 0] x2 slices_S2x1600000_S1x1600000_1_0) shapeCasts_S1x1600000_S1600000⟩, ⟨S50000, iotaInDim S50000 32 0⟩] concatenates_S1600000_S50000_S1650000_d0
/-- The edge weights, ones appended for the self-loops. -/
def wts (x3 : FVec Ideal S1600000 .f32) : FVec Ideal S1650000 .f32 :=
  concatenate S1650000 0 [⟨S1600000, x3⟩, ⟨S50000, broadcastInDim S50000 ![] bcast_S_S50000 (constant S_ .f32 0x3F800000#32)⟩] concatenates_S1600000_S50000_S1650000_d0
/-- The weighted in-degree of every node. -/
def deg (x2 : IVec S2x1600000 32) (x3 : FVec Ideal S1600000 .f32) : FVec Ideal S50000 .f32 :=
  Host.scatterAdd scatter_S50000_S1650000x1_S1650000_n_0_0_1 (broadcastInDim S50000 ![] bcast_S_S50000 (constant S_ .f32 0x00000000#32))
    (broadcastInDim S1650000x1 ![0] bcast_S1650000_S1650000x1_0 (colI x2)) (wts x3)
/-- The normalisation factor: deg^(-1/2) where the degree is positive, else 0. -/
def dinv (x2 : IVec S2x1600000 32) (x3 : FVec Ideal S1600000 .f32) : FVec Ideal S50000 .f32 :=
  select (cmpf .ogt (deg x2 x3) (broadcastInDim S50000 ![] bcast_S_S50000 (constant S_ .f32 0x00000000#32)))
    (Host.rsqrt (deg x2 x3)) (broadcastInDim S50000 ![] bcast_S_S50000 (id (constant S_ .f32 0x00000000#32)))
/-- The same as a column. -/
def dcol (x2 : IVec S2x1600000 32) (x3 : FVec Ideal S1600000 .f32) : FVec Ideal S50000x1 .f32 :=
  shapeCast _ (dinv x2 x3) shapeCasts_S50000_S50000x1

/-- A column of node indices with the negative ones wrapped once by the number of nodes. -/
def wrapCol (r : IVec S1650000 32) : IVec S1650000x1 32 :=
  broadcastInDim S1650000x1 ![0] bcast_S1650000_S1650000x1_0
    (select (cmpi .slt r (broadcastInDim S1650000 ![] bcast_S_S1650000 (constantI S_ 32 0#32)))
      (addi r (broadcastInDim S1650000 ![] bcast_S_S1650000 (constantI S_ 32 50000#32))) r)

/-- The kernel's aggregation of a 64-channel array: rows taken at the sources, times the edge weight, added at the targets. -/
def agg64 (s : FVec Ideal S50000x64 .f32) (row col : IVec S1650000 32) (w : FVec Ideal S1650000 .f32) : FVec Ideal S50000x64 .f32 :=
  Host.scatterAdd scatter_S50000x64_S1650000x1_S1650000x64_1_0_0_1 (broadcastInDim S50000x64 ![] bcast_S_S50000x64 (constant S_ .f32 0x00000000#32))
    (broadcastInDim S1650000x1 ![0] bcast_S1650000_S1650000x1_0 col)
    (mulf (Host.gather gather_S50000x64_S1650000x1_S1650000x64_1_0_n_n_0_1_164 s (wrapCol row))
      (broadcastInDim S1650000x64 ![0, 1] bcast_S1650000x1_S1650000x64_0_1 (broadcastInDim S1650000x1 ![0] bcast_S1650000_S1650000x1_0 w)))
/-- The same of a 32-channel array. -/
def agg32 (s : FVec Ideal S50000x32 .f32) (row col : IVec S1650000 32) (w : FVec Ideal S1650000 .f32) : FVec Ideal S50000x32 .f32 :=
  Host.scatterAdd scatter_S50000x32_S1650000x1_S1650000x32_1_0_0_1 (broadcastInDim S50000x32 ![] bcast_S_S50000x32 (constant S_ .f32 0x00000000#32))
    (broadcastInDim S1650000x1 ![0] bcast_S1650000_S1650000x1_0 col)
    (mulf (Host.gather gather_S50000x32_S1650000x1_S1650000x32_1_0_n_n_0_1_132 s (wrapCol row))
      (broadcastInDim S1650000x32 ![0, 1] bcast_S1650000x1_S1650000x32_0_1 (broadcastInDim S1650000x1 ![0] bcast_S1650000_S1650000x1_0 w)))
/-- The last step: the factor times the second aggregate, plus the bias. -/
def finish (d : FVec Ideal S50000x1 .f32) (a : FVec Ideal S50000x32 .f32) (x8 : FVec Ideal S32 .f32) : FVec Ideal S50000x32 .f32 :=
  addf (mulf (broadcastInDim S50000x32 ![0, 1] bcast_S50000x1_S50000x32_0_1 d) a)
    (broadcastInDim S50000x32 ![0, 1] bcast_S1x32_S50000x32_0_1 (broadcastInDim S1x32 ![1] bcast_S32_S1x32_1 x8))

/-! ## The last stretch -/

set_option maxHeartbeats 4000000 in
theorem tail_v54 (W : Valuation τ sig (Elt Ideal)) :
    StableHlo.after (hostOps2 (F := Ideal)) W (Proc.devRef .tc main_v54)
      = finish (W (Proc.devRef .tc main_v16)) (agg32 (W (Proc.devRef .tc main_v36)) (W (Proc.devRef .tc main_v5)) (W (Proc.devRef .tc main_v6)) (W (Proc.devRef .tc main_v8))) (W (Proc.devRef .tc main_arg8)) := by
  after_results_simp
  rfl

/-! ## The small arrays the regions read -/

/-- The configuration ids as a column. -/
def cidcol (x1 : IVec S50000 32) : IVec S50000x1 32 := shapeCast S50000x1 x1 shapeCasts_S50000_S50000x1
/-- The first 128 rows of the first weight. -/
def w1a (x5 : FVec Ideal S132x64 .f32) : FVec Ideal S128x64 .f32 := extractStridedSlice S128x64 ![0, 0] x5 slices_S132x64_S128x64_0_0
/-- The embedding table times the last 4 rows of the first weight. -/
def tbl (x4 : FVec Ideal S16x4 .f32) (x5 : FVec Ideal S132x64 .f32) : FVec Ideal S16x64 .f32 :=
  Host.dotGeneral dot_S16x4_S4x64_S16x64_1_0_0_1_n_n none x4 (extractStridedSlice S4x64 ![128, 0] x5 slices_S132x64_S4x64_128_0)
/-- The first bias as a row. -/
def b1row (x6 : FVec Ideal S64 .f32) : FVec Ideal S1x64 .f32 := shapeCast S1x64 x6 shapeCasts_S64_S1x64

/-! ## The stretch between the regions -/

set_option maxHeartbeats 4000000 in
theorem mid_v34 (W : Valuation τ sig (Elt Ideal)) :
    StableHlo.after (hostOps1 (F := Ideal)) W (Proc.devRef .tc main_v34)
      = agg64 (W (Proc.devRef .tc main_v21)) (W (Proc.devRef .tc main_v5)) (W (Proc.devRef .tc main_v6)) (W (Proc.devRef .tc main_v8)) := by
  after_results_simp
  rfl
set_option maxHeartbeats 4000000 in
theorem mid_v35 (W : Valuation τ sig (Elt Ideal)) :
    StableHlo.after (hostOps1 (F := Ideal)) W (Proc.devRef .tc main_v35) = b1row (W (Proc.devRef .tc main_arg6)) := by
  after_results_simp
  rfl
set_option maxHeartbeats 4000000 in
theorem mid_v16 (W : Valuation τ sig (Elt Ideal)) :
    StableHlo.after (hostOps1 (F := Ideal)) W (Proc.devRef .tc main_v16) = W (Proc.devRef .tc main_v16) := by after_results_simp
set_option maxHeartbeats 4000000 in
theorem mid_v5 (W : Valuation τ sig (Elt Ideal)) :
    StableHlo.after (hostOps1 (F := Ideal)) W (Proc.devRef .tc main_v5) = W (Proc.devRef .tc main_v5) := by after_results_simp
set_option maxHeartbeats 4000000 in
theorem mid_v6 (W : Valuation τ sig (Elt Ideal)) :
    StableHlo.after (hostOps1 (F := Ideal)) W (Proc.devRef .tc main_v6) = W (Proc.devRef .tc main_v6) := by after_results_simp
set_option maxHeartbeats 4000000 in
theorem mid_v8 (W : Valuation τ sig (Elt Ideal)) :
    StableHlo.after (hostOps1 (F := Ideal)) W (Proc.devRef .tc main_v8) = W (Proc.devRef .tc main_v8) := by after_results_simp
set_option maxHeartbeats 4000000 in
theorem mid_arg7 (W : Valuation τ sig (Elt Ideal)) :
    StableHlo.after (hostOps1 (F := Ideal)) W (Proc.devRef .tc main_arg7) = W (Proc.devRef .tc main_arg7) := by after_results_simp
set_option maxHeartbeats 4000000 in
theorem mid_arg8 (W : Valuation τ sig (Elt Ideal)) :
    StableHlo.after (hostOps1 (F := Ideal)) W (Proc.devRef .tc main_arg8) = W (Proc.devRef .tc main_arg8) := by after_results_simp

/-! ## The stretches before the first region -/

/-- The buffer contents when region 0 is entered, from contents `W` at the launch. -/
abbrev head (W : Valuation τ sig (Elt Ideal)) : Valuation τ sig (Elt Ideal) :=
  StableHlo.after (hostOps0_2 (F := Ideal)) (StableHlo.after (hostOps0_1 (F := Ideal)) (StableHlo.after (hostOps0 (F := Ideal)) W))

set_option maxHeartbeats 4000000 in
theorem s2_v16 (V : Valuation τ sig (Elt Ideal)) :
    StableHlo.after (hostOps0_2 (F := Ideal)) V (Proc.devRef .tc main_v16)
      = shapeCast S50000x1 (V (Proc.devRef .tc main_v15)) shapeCasts_S50000_S50000x1 := by
  after_results_simp
  rfl
set_option maxHeartbeats 4000000 in
theorem s1_v15 (V : Valuation τ sig (Elt Ideal)) :
    StableHlo.after (hostOps0_1 (F := Ideal)) V (Proc.devRef .tc main_v15)
      = select (V (Proc.devRef .tc main_v13)) (V (Proc.devRef .tc main_v14))
          (broadcastInDim S50000 ![] bcast_S_S50000 (id (V (Proc.devRef .tc main_cst_2)))) := by
  after_results_simp
  rfl
set_option maxHeartbeats 40000000 in
theorem s0_v13 (W : Valuation τ sig (Elt Ideal)) :
    StableHlo.after (hostOps0 (F := Ideal)) W (Proc.devRef .tc main_v13)
      = cmpf .ogt (deg (W (Proc.devRef .tc main_arg2)) (W (Proc.devRef .tc main_arg3)))
          (broadcastInDim S50000 ![] bcast_S_S50000 (constant S_ .f32 0x00000000#32)) := by
  after_results
  rfl
set_option maxHeartbeats 40000000 in
theorem s0_v14 (W : Valuation τ sig (Elt Ideal)) :
    StableHlo.after (hostOps0 (F := Ideal)) W (Proc.devRef .tc main_v14)
      = Host.rsqrt (deg (W (Proc.devRef .tc main_arg2)) (W (Proc.devRef .tc main_arg3))) := by
  after_results
  rfl
set_option maxHeartbeats 4000000 in
theorem s0_cst2 (W : Valuation τ sig (Elt Ideal)) :
    StableHlo.after (hostOps0 (F := Ideal)) W (Proc.devRef .tc main_cst_2) = constant (F := Ideal) S_ .f32 0x00000000#32 := by
  after_results_simp
theorem head_v16 (W : Valuation τ sig (Elt Ideal)) :
    head W (Proc.devRef .tc main_v16) = dcol (W (Proc.devRef .tc main_arg2)) (W (Proc.devRef .tc main_arg3)) := by
  show StableHlo.after (hostOps0_2 (F := Ideal)) (StableHlo.after (hostOps0_1 (F := Ideal)) (StableHlo.after (hostOps0 (F := Ideal)) W)) (Proc.devRef .tc main_v16) = _
  rw [s2_v16, s1_v15, s0_v13, s0_v14, s0_cst2]
  rfl
set_option maxHeartbeats 4000000 in
theorem head_v17 (W : Valuation τ sig (Elt Ideal)) :
    head W (Proc.devRef .tc main_v17) = cidcol (W (Proc.devRef .tc main_arg1)) := by
  after_results_simp
  rfl
set_option maxHeartbeats 4000000 in
theorem head_v18 (W : Valuation τ sig (Elt Ideal)) :
    head W (Proc.devRef .tc main_v18) = w1a (W (Proc.devRef .tc main_arg5)) := by
  after_results_simp
  rfl
set_option maxHeartbeats 4000000 in
theorem head_v20 (W : Valuation τ sig (Elt Ideal)) :
    head W (Proc.devRef .tc main_v20) = tbl (W (Proc.devRef .tc main_arg4)) (W (Proc.devRef .tc main_arg5)) := by
  after_results_simp
  rfl
set_option maxHeartbeats 4000000 in
theorem head_v5 (W : Valuation τ sig (Elt Ideal)) :
    head W (Proc.devRef .tc main_v5) = rowI (W (Proc.devRef .tc main_arg2)) := by
  after_results_simp
  rfl
set_option maxHeartbeats 4000000 in
theorem head_v6 (W : Valuation τ sig (Elt Ideal)) :
    head W (Proc.devRef .tc main_v6) = colI (W (Proc.devRef .tc main_arg2)) := by
  after_results_simp
  rfl
set_option maxHeartbeats 4000000 in
theorem head_v8 (W : Valuation τ sig (Elt Ideal)) :
    head W (Proc.devRef .tc main_v8) = wts (W (Proc.devRef .tc main_arg3)) := by
  after_results_simp
  rfl
set_option maxHeartbeats 4000000 in
theorem head_arg0 (W : Valuation τ sig (Elt Ideal)) :
    head W (Proc.devRef .tc main_arg0) = W (Proc.devRef .tc main_arg0) := by after_results_simp
set_option maxHeartbeats 4000000 in
theorem head_arg6 (W : Valuation τ sig (Elt Ideal)) :
    head W (Proc.devRef .tc main_arg6) = W (Proc.devRef .tc main_arg6) := by after_results_simp
set_option maxHeartbeats 4000000 in
theorem head_arg7 (W : Valuation τ sig (Elt Ideal)) :
    head W (Proc.devRef .tc main_arg7) = W (Proc.devRef .tc main_arg7) := by after_results_simp
set_option maxHeartbeats 4000000 in
theorem head_arg8 (W : Valuation τ sig (Elt Ideal)) :
    head W (Proc.devRef .tc main_arg8) = W (Proc.devRef .tc main_arg8) := by after_results_simp

/-! ## The whole program's result, composed -/

/-- The kernel program's result as one function of the nine argument arrays. -/
def kernelOut (x0 : FVec Ideal S50000x128 .f32) (x1 : IVec S50000 32) (x2 : IVec S2x1600000 32) (x3 : FVec Ideal S1600000 .f32)
    (x4 : FVec Ideal S16x4 .f32) (x5 : FVec Ideal S132x64 .f32) (x6 : FVec Ideal S64 .f32) (x7 : FVec Ideal S64x32 .f32)
    (x8 : FVec Ideal S32 .f32) : FVec Ideal S50000x32 .f32 :=
  finish (dcol x2 x3)
    (agg32 (Cert.Gcn.dense2
        (agg64 (Cert.Gcn.dense1 x0 (cidcol x1) (tbl x4 x5) (w1a x5) (dcol x2 x3)) (rowI x2) (colI x2) (wts x3))
        (dcol x2 x3) (b1row x6) x7) (rowI x2) (colI x2) (wts x3)) x8

end Cert.KernelIdeal.HostVal

end
-- ==== Proof.Region0.lean ====
/-
  What region 0 of the program leaves in its output array, as one function of the arrays it reads.
  Grid point t of ten handles rows [5000 t, 5000 t + 5000) of every row-blocked array; the 16 x 64 table and the
  128 x 64 weight are read whole at every point.  The block written back at t is the layer-1 dense stage of the rows it read,
  and the ten blocks tile the 50000 x 64 output, so the array after the region is that stage of the whole arrays.
-/
import proofs.«413241_j45346264711627_3_alg».proof.Proof.Gen.KernelIdeal.Frame
import proofs.«413241_j45346264711627_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline

/-! ## The two contractions' operand indices -/

private theorem lhs_dX_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
private theorem lhs_dX_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
private theorem rhs_dX_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
private theorem rhs_dX_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

private theorem lhs_dT_0 (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
private theorem lhs_dT_1 (i : S5000x64.Idx) (q : dot_S5000x16_S16x64_S5000x64_1_0_0_1_n_n.contr.Idx) :
    (dot_S5000x16_S16x64_S5000x64_1_0_0_1_n_n.lhsIdx i q 1).val = (q ⟨0, by decide⟩).val :=
  dot_S5000x16_S16x64_S5000x64_1_0_0_1_n_n.lhsIdx_val_of_single rfl i q
private theorem rhs_dT_0 (i : S5000x64.Idx) (q : dot_S5000x16_S16x64_S5000x64_1_0_0_1_n_n.contr.Idx) :
    (dot_S5000x16_S16x64_S5000x64_1_0_0_1_n_n.rhsIdx i q 0).val = (q ⟨0, by decide⟩).val :=
  dot_S5000x16_S16x64_S5000x64_1_0_0_1_n_n.rhsIdx_val_of_single rfl i q
private theorem rhs_dT_1 (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- A product of a 5000 x 128 block and the 128 x 64 weight into a zero accumulator, at (p, q): the row-by-column sum. -/
private theorem matmulX_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  show FloatOps.matmul dot_S5000x128_S128x64_S5000x64_1_0_0_1_n_n none a b (constant (F := Ideal) S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_dX_0 _ _
    | ⟨1, _⟩ => exact (lhs_dX_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_dX_0 _ _).trans hk
    | ⟨1, _⟩ => exact rhs_dX_1 _ _)
  rw [el, er]

/-- A product of a 5000 x 16 block and the 16 x 64 table into a zero accumulator, at (p, q): the row-by-column sum. -/
private theorem matmulT_apply (a : FVec Ideal S5000x16 .bf16) (b : FVec Ideal S16x64 .bf16) (p : Fin 5000) (q : Fin 64) :
    matmul dot_S5000x16_S16x64_S5000x64_1_0_0_1_n_n none a b (constant (F := Ideal) S5000x64 .f32 0x00000000#32) (ix2 p q)
      = ∑ k : Fin 16, a (ix2 p k) * b (ix2 k q) := by
  show FloatOps.matmul dot_S5000x16_S16x64_S5000x64_1_0_0_1_n_n none a b (constant (F := Ideal) S5000x64 .f32 0x00000000#32) (ix2 p q) = _
  rw [Ideal.matmul_constant_zero_apply, ← Equiv.sum_comp (ValueIdx.contrEquiv1 dot_S5000x16_S16x64_S5000x64_1_0_0_1_n_n 16 rfl rfl).symm]
  refine Finset.sum_congr rfl fun k _ => ?_
  have hk := ValueIdx.contrEquiv1_symm_val dot_S5000x16_S16x64_S5000x64_1_0_0_1_n_n 16 rfl rfl k
  have el : dot_S5000x16_S16x64_S5000x64_1_0_0_1_n_n.lhsIdx (ix2 p q) ((ValueIdx.contrEquiv1 dot_S5000x16_S16x64_S5000x64_1_0_0_1_n_n 16 rfl rfl).symm k) = ix2 p k := funext fun a => Fin.ext (by
    match a with
    | ⟨0, _⟩ => exact lhs_dT_0 _ _
    | ⟨1, _⟩ => exact (lhs_dT_1 _ _).trans hk)
  have er : dot_S5000x16_S16x64_S5000x64_1_0_0_1_n_n.rhsIdx (ix2 p q) ((ValueIdx.contrEquiv1 dot_S5000x16_S16x64_S5000x64_1_0_0_1_n_n 16 rfl rfl).symm k) = ix2 k q := funext fun a => Fin.ext (by
    match a with
    | ⟨0, _⟩ => exact (rhs_dT_0 _ _).trans hk
    | ⟨1, _⟩ => exact rhs_dT_1 _ _)
  rw [el, er]

/-! ## The body's arithmetic at an index of a block -/

/-- A 5000 x 1 column spread across 64 channels reads the column's row. -/
private theorem bcast64_apply {α : Type} (x : S5000x1.Idx → α) (p : Fin 5000) (q : Fin 64) :
    broadcastTo S5000x64 x broadcasts_S5000x1_S5000x64 (ix2 p q) = x (ix2 p (0 : Fin 1)) :=
  broadcastTo_apply x broadcasts_S5000x1_S5000x64 (ix2 p q) (ix2 p (0 : Fin 1)) (fun a => match a with
    | ⟨0, _⟩ => rfl
    | ⟨1, _⟩ => rfl)

/-- A 5000 x 1 column spread across the 16 table rows reads the column's row. -/
private theorem bcast16_apply {α : Type} (x : S5000x1.Idx → α) (p : Fin 5000) (k : Fin 16) :
    broadcastTo S5000x16 x broadcasts_S5000x1_S5000x16 (ix2 p k) = x (ix2 p (0 : Fin 1)) :=
  broadcastTo_apply x broadcasts_S5000x1_S5000x16 (ix2 p k) (ix2 p (0 : Fin 1)) (fun a => match a with
    | ⟨0, _⟩ => rfl
    | ⟨1, _⟩ => rfl)

/-- A column of ids compared with the table-row counter, at row p and table row k: the row's id against k. -/
private theorem cmp_apply (w : IVec S5000x1 32) (p : Fin 5000) (k : Fin 16) :
    cmpi .eq (broadcastTo S5000x16 w broadcasts_S5000x1_S5000x16) (iota .tc S5000x16 32 [1] iota_S5000x16_d1_w32) (ix2 p k)
      = IntOp.cmpi .eq (w (ix2 p (0 : Fin 1))) (BitVec.ofNat 32 k.val) := by
  show IntOp.cmpi .eq (broadcastTo S5000x16 w broadcasts_S5000x1_S5000x16 (ix2 p k))
    (iota .tc S5000x16 32 [1] iota_S5000x16_d1_w32 (ix2 p k)) = _
  rw [bcast16_apply, iota_single_apply]

/-- The one-hot block of a column of ids, at row p and table row k: 1 where the row's id is k, else 0. -/
private theorem onehot_apply (w : IVec S5000x1 32) (p : Fin 5000) (k : Fin 16) :
    (sitofp .f32 (extui 32 (cmpi .eq (broadcastTo S5000x16 w broadcasts_S5000x1_S5000x16)
        (iota .tc S5000x16 32 [1] iota_S5000x16_d1_w32)) natLt_1_32) : FVec Ideal S5000x16 .f32) (ix2 p k)
      = ((((IntOp.cmpi .eq (w (ix2 p (0 : Fin 1))) (BitVec.ofNat 32 k.val)).setWidth 32).toInt : ℝ) : EReal) := by
  rw [sitofp_apply, extui_apply, cmp_apply]
  rfl

/-- The body's output at row p, channel q of a block: the features' row times the weight's column, plus the one-hot row
    of the id times the table's column, the whole scaled by the row's factor. -/
private theorem pay_apply (v0 : Vec Ideal S5000x1 .i32) (v17 : Vec Ideal S16x64 .f32) (v21 : Vec Ideal S5000x128 .f32)
    (v23 : Vec Ideal S128x64 .f32) (v28 : Vec Ideal S5000x1 .f32) (p : Fin 5000) (q : Fin 64) :
    k0_pay1 (F := Ideal) v0 v17 v21 v23 v28 (ix2 p q)
      = ((∑ k : Fin 128, v21 (ix2 p k) * v23 (ix2 k q))
          + (∑ c : Fin 16, Cert.Gcn.onehot (v0 (ix2 p (0 : Fin 1))) c * v17 (ix2 c q))) * v28 (ix2 p (0 : Fin 1)) := by
  unfold k0_pay1
  simp only [shapeCast_self]
  rw [mulf_apply, addf_apply, matmulX_apply, matmulT_apply, bcast64_apply]
  simp only [truncf_apply]
  refine congrArg (· * v28 (ix2 p (0 : Fin 1))) (congrArg (_ + ·) (Finset.sum_congr rfl fun k _ => ?_))
  rw [onehot_apply]
  rfl

variable (V : (c : Dev nD) → (b : Ref sig .tc) → Buf (Elt Ideal) ((c : Thread nD τ).loc b))

/-! ## The blocks a point reads, as rows of the arrays -/

private theorem hz : (![0, 0] : Fin 2 → Nat) = fun _ => 0 := funext fun a => by fin_cases a <;> rfl

/-- The index maps, decided over the grid: every row-blocked window is at block (t, 0) at point t, the table and the
    weight at block (0, 0). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The five blocks point t reads: the features' rows, the ids' rows, the table, the weight, the factors' rows. -/
private abbrev xblk (c : Dev nD) (t : Fin cfg0.N) : Vec Ideal S5000x128 .f32 := iblk0 V c 0 t
private abbrev idblk (c : Dev nD) (t : Fin cfg0.N) : Vec Ideal S5000x1 .i32 := iblk0 V c 1 t
private abbrev tblk (c : Dev nD) (t : Fin cfg0.N) : Vec Ideal S16x64 .f32 := iblk0 V c 2 t
private abbrev wblk (c : Dev nD) (t : Fin cfg0.N) : Vec Ideal S128x64 .f32 := iblk0 V c 3 t
private abbrev dblk (c : Dev nD) (t : Fin cfg0.N) : Vec Ideal S5000x1 .f32 := iblk0 V c 4 t

/-- Row p of the features' block at point t is row 5000 t + p of the features. -/
private theorem xblk_apply (c : Dev nD) (t : Fin cfg0.N) (p : Fin 5000) (k : Fin 128) (n : Fin 50000)
    (hn : n.val = t.val * 5000 + p.val) :
    xblk V c t (ix2 p k) = V c main_arg0 (ix2 n k) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Row p of the ids' block at point t is row 5000 t + p of the ids. -/
private theorem idblk_apply (c : Dev nD) (t : Fin cfg0.N) (p : Fin 5000) (n : Fin 50000)
    (hn : n.val = t.val * 5000 + p.val) :
    idblk V c t (ix2 p (0 : Fin 1)) = V c main_v17 (ix2 n (0 : Fin 1)) := by
  obtain ⟨-, -, e0, e1, -⟩ := idx_facts t
  unfold idblk iblk0
  rw [View.read_apply]
  show V c main_v17 _ = V c main_v17 _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 1 + 1 * 0 = 0; rw [e1]

/-- The table's block at every point is the table. -/
private theorem tblk_apply (c : Dev nD) (t : Fin cfg0.N) (k : Fin 16) (q : Fin 64) :
    tblk V c t (ix2 k q) = V c main_v20 (ix2 k q) := by
  obtain ⟨-, -, -, -, e0, e1, -⟩ := idx_facts t
  unfold tblk iblk0
  rw [View.read_apply]
  show V c main_v20 _ = V c main_v20 _
  congr 1
  funext a
  apply Fin.ext
  match a with
  | ⟨0, _⟩ => show win0_2.index t (0 : Fin 2) * 16 + 1 * k.val = k.val; rw [e0]; omega
  | ⟨1, _⟩ => show win0_2.index t (1 : Fin 2) * 64 + 1 * q.val = q.val; rw [e1]; omega

/-- The weight's block at every point is the weight. -/
private theorem wblk_apply (c : Dev nD) (t : Fin cfg0.N) (k : Fin 128) (q : Fin 64) :
    wblk V c t (ix2 k q) = V c main_v18 (ix2 k q) := by
  obtain ⟨-, -, -, -, -, -, e0, e1, -⟩ := idx_facts t
  unfold wblk iblk0
  rw [View.read_apply]
  show V c main_v18 _ = V c main_v18 _
  congr 1
  funext a
  apply Fin.ext
  match a with
  | ⟨0, _⟩ => show win0_3.index t (0 : Fin 2) * 128 + 1 * k.val = k.val; rw [e0]; omega
  | ⟨1, _⟩ => show win0_3.index t (1 : Fin 2) * 64 + 1 * q.val = q.val; rw [e1]; omega

/-- Row p of the factors' block at point t is row 5000 t + p of the factors. -/
private theorem dblk_apply (c : Dev nD) (t : Fin cfg0.N) (p : Fin 5000) (n : Fin 50000)
    (hn : n.val = t.val * 5000 + p.val) :
    dblk V c t (ix2 p (0 : Fin 1)) = V c main_v16 (ix2 n (0 : Fin 1)) := by
  obtain ⟨-, -, -, -, -, -, -, -, e0, e1, -⟩ := idx_facts t
  unfold dblk iblk0
  rw [View.read_apply]
  show V c main_v16 _ = V c main_v16 _
  congr 1
  funext a
  apply Fin.ext
  match a with
  | ⟨0, _⟩ => show win0_4.index t (0 : Fin 2) * 5000 + 1 * p.val = n.val; rw [e0, hn]; omega
  | ⟨1, _⟩ => show win0_4.index t (1 : Fin 2) * 1 + 1 * 0 = 0; rw [e1]

/-! ## What a point writes back -/

/-- Row p of the output's block at point t is row 5000 t + p of the output. -/
private theorem oblk_emb (t : Fin cfg0.N) (p : Fin 5000) (q : Fin 64) (n : Fin 50000) (hn : n.val = t.val * 5000 + p.val) :
    (((cfg0.win 5).blk t).view.emb (ix2 p q) : S50000x64.Idx) = ix2 n q := by
  obtain ⟨-, -, -, -, -, -, -, -, -, -, e0, e1⟩ := idx_facts t
  funext a
  apply Fin.ext
  match a with
  | ⟨0, _⟩ => show win0_5.index t (0 : Fin 2) * 5000 + 1 * p.val = n.val; rw [e0, hn]; omega
  | ⟨1, _⟩ => show win0_5.index t (1 : Fin 2) * 64 + 1 * q.val = q.val; rw [e1]; omega

/-- WHAT POINT t WRITES BACK is block t of the layer-1 dense stage of the whole arrays. -/
private theorem flushed_eq (c : Dev nD) (t : Fin cfg0.N) :
    (dat0 (F := Ideal) V c).flushed 5 t = ((cfg0.win 5).blk t).view.read (Elt Ideal)
      (Cert.Gcn.dense1 (V c main_arg0) (V c main_v17) (V c main_v20) (V c main_v18) (V c main_v16)) := by
  show (cfg0.win 5).cut (grid0.coords t) ((dat0 V c).after 5 t) = _
  rw [after0_5]
  unfold out0_5
  rw [View.canon_unit_zero hz]
  simp only [View.ld_unit_zero (S := S5000x1) hz, View.ld_unit_zero (S := S16x64) hz,
    View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  have ht : t.val < 10 := t.isLt
  have hn : (⟨t.val * 5000 + p.val, by omega⟩ : Fin 50000).val = t.val * 5000 + p.val := rfl
  rw [View.read_apply]
  show k0_pay1 (idblk V c t) (tblk V c t) (xblk V c t) (wblk V c t) (dblk V c t) (ix2 p q)
    = Cert.Gcn.dense1 (V c main_arg0) (V c main_v17) (V c main_v20) (V c main_v18) (V c main_v16)
        (((cfg0.win 5).blk t).view.emb (ix2 p q))
  rw [oblk_emb t p q _ hn, Cert.Gcn.dense1_apply, pay_apply, idblk_apply V c t p _ hn, dblk_apply V c t p _ hn]
  simp only [xblk_apply V c t p _ _ hn, tblk_apply, wblk_apply]

/-! ## The ten blocks tile the output -/

/-- An index of the output is in point t's block iff each coordinate is in the block's range on its axis. -/
private theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v21).slice (win0_5.rect t)).set ↔ _
  rw [View.set_slice_whole, Rect.mem_set_unit]
  exact Iff.rfl

/-- Row r of the output is in the block of point r / 5000. -/
private theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have ht : (i 0).val / 5000 < 10 := by omega
  refine ⟨⟨(i 0).val / 5000, ht⟩, flush0_5 _, ?_⟩
  rw [mem_blk]
  obtain ⟨-, -, -, -, -, -, -, -, -, -, e0, e1⟩ := idx_facts ⟨(i 0).val / 5000, ht⟩
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e1]
    omega

/-- The array region 0 writes, after its ten points: the layer-1 dense stage of the five arrays it reads. -/
theorem array (c : Dev nD) :
    (dat0 (F := Ideal) V c).arrAt 5 cfg0.N
      = Cert.Gcn.dense1 (V c main_arg0) (V c main_v17) (V c main_v20) (V c main_v18) (V c main_v16) :=
  (dat0 (F := Ideal) V c).arrAt_eq_of_cover 5
    (Cert.Gcn.dense1 (V c main_arg0) (V c main_v17) (V c main_v20) (V c main_v18) (V c main_v16))
    (fun t _ => flushed_eq V c t) cover

end Cert.KernelIdeal.Region0

end
-- ==== Proof.Region1.lean ====
/-
  What region 1 of the program leaves in its output array, as one function of the arrays it reads.
  Grid point t of ten handles rows [5000 t, 5000 t + 5000) of every row-blocked array; the 1 x 64 bias row and the
  64 x 32 weight are read whole at every point.  The block written back at t is the layer-2 dense stage of the rows it read,
  and the ten blocks tile the 50000 x 32 output, so the array after the region is that stage of the whole arrays.
-/
import proofs.«413241_j45346264711627_3_alg».proof.Proof.Gen.KernelIdeal.Frame
import proofs.«413241_j45346264711627_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline

/-! ## The body's arithmetic at one entry

The product of a 5000 x 64 block by the 64 x 32 weight contracts axis 1 of the left operand with axis 0 of the right:
at output entry (p, q) and contraction index k the left operand is read at (p, k) and the right at (k, q). -/

/-- Left operand, axis 0: the output's row. -/
private theorem lhs_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl

/-- Left operand, axis 1: the contraction index. -/
private theorem lhs_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q

/-- Right operand, axis 0: the contraction index. -/
private theorem rhs_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q

/-- Right operand, axis 1: the output's column. -/
private theorem rhs_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- A 5000 x 1 column laid along 64 columns reads, at (p, k), the column's entry (p, 0). -/
private theorem bcast_col_64 (x : Vec Ideal S5000x1 .f32) (p : Fin 5000) (k : Fin 64) :
    broadcastTo S5000x64 x broadcasts_S5000x1_S5000x64 (ix2 p k) = x (ix2 p (0 : Fin 1)) :=
  broadcastTo_apply x _ (ix2 p k) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-- A 5000 x 1 column laid along 32 columns reads, at (p, q), the column's entry (p, 0). -/
private theorem bcast_col_32 (x : Vec Ideal S5000x1 .f32) (p : Fin 5000) (q : Fin 32) :
    broadcastTo S5000x32 x broadcasts_S5000x1_S5000x32 (ix2 p q) = x (ix2 p (0 : Fin 1)) :=
  broadcastTo_apply x _ (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

/-- A 1 x 64 row laid along 5000 rows reads, at (p, k), the row's entry (0, k). -/
private theorem bcast_row_64 (x : Vec Ideal S1x64 .f32) (p : Fin 5000) (k : Fin 64) :
    broadcastTo S5000x64 x broadcasts_S1x64_S5000x64 (ix2 p k) = x (ix2 (0 : Fin 1) k) :=
  broadcastTo_apply x _ (ix2 p k) (ix2 (0 : Fin 1) k) (fun a => match a with
    | ⟨0, _⟩ => by show (0 : Nat) = if (1 : Nat) = 1 then 0 else p.val; rw [if_pos rfl]
    | ⟨1, _⟩ => by show k.val = if (64 : Nat) = 1 then 0 else k.val; rw [if_neg (by decide)])

/-- The body's value at entry (p, q) of its block: with a the 5000 x 64 block, d the 5000 x 1 column (read twice, as
    d and d'), b the 1 x 64 row and w the 64 x 32 weight,
    (sum over k of max(a(p,k) * d(p,0) + b(0,k), 0) * w(k,q)) * d'(p,0). -/
private theorem pay_apply (x0 : Vec Ideal S5000x64 .f32) (x1 : Vec Ideal S5000x1 .f32) (x2 : Vec Ideal S1x64 .f32)
    (x3 : Vec Ideal S64x32 .f32) (x4 : Vec Ideal S5000x1 .f32) (p : Fin 5000) (q : Fin 32) :
    k1_pay1 (F := Ideal) x0 x1 x2 x3 x4 (ix2 p q)
      = (∑ k : Fin 64, max (x0 (ix2 p k) * x1 (ix2 p (0 : Fin 1)) + x2 (ix2 (0 : Fin 1) k)) 0 * x3 (ix2 k q))
        * x4 (ix2 p (0 : Fin 1)) := by
  unfold k1_pay1
  simp only [shapeCast_self]
  rw [mulf_apply, bcast_col_32]
  simp only [matmul]
  rw [Ideal.matmul_constant_zero_apply,
    ← Equiv.sum_comp (contrEquiv1 dot_S5000x64_S64x32_S5000x32_1_0_0_1_n_n 64 rfl rfl).symm]
  congr 1
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q)
      ((contrEquiv1 dot_S5000x64_S64x32_S5000x32_1_0_0_1_n_n 64 rfl rfl).symm k) = ix2 p k :=
    funext fun a => Fin.ext (by
      match a with
      | ⟨0, _⟩ => exact lhs_0 _ _
      | ⟨1, _⟩ => exact (lhs_1 _ _).trans hk)
  have er : dot_S5000x64_S64x32_S5000x32_1_0_0_1_n_n.rhsIdx (ix2 p q)
      ((contrEquiv1 dot_S5000x64_S64x32_S5000x32_1_0_0_1_n_n 64 rfl rfl).symm k) = ix2 k q :=
    funext fun a => Fin.ext (by
      match a with
      | ⟨0, _⟩ => exact (rhs_0 _ _).trans hk
      | ⟨1, _⟩ => exact rhs_1 _ _)
  rw [el, er, truncf_apply, truncf_apply, maximumf_apply, addf_apply, mulf_apply, broadcast_apply, bcast_col_64,
    bcast_row_64]
  show max _ (Ideal.ofBits .f32 0x00000000#32) * _ = _
  rw [Ideal.ofBits_zero_f32]

variable (V : (c : Dev nD) → (b : Ref sig .tc) → Buf (Elt Ideal) ((c : Thread nD τ).loc b))

/-! ## The blocks a point reads, as entries of the whole arrays -/

private theorem hz : (![0, 0] : Fin 2 → Nat) = fun _ => 0 := funext fun a => by fin_cases a <;> rfl

/-- The block indices over the grid: every row-blocked array is at block (t, 0) at point t, the bias row and the weight
    at block (0, 0). -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has ten points. -/
private theorem t_lt (t : Fin cfg1.N) : t.val < 10 := Nat.lt_of_lt_of_eq t.isLt N_1

/-- The 5000 x 64 block of the aggregated layer-1 output at point t. -/
private abbrev agg (c : Dev nD) (t : Fin cfg1.N) : Vec Ideal S5000x64 .f32 := iblk1 V c 0 t
/-- The 5000 x 1 block of the normalisation factors at point t. -/
private abbrev dinv (c : Dev nD) (t : Fin cfg1.N) : Vec Ideal S5000x1 .f32 := iblk1 V c 1 t
/-- The 1 x 64 bias row, whole at every point. -/
private abbrev bias (c : Dev nD) (t : Fin cfg1.N) : Vec Ideal S1x64 .f32 := iblk1 V c 2 t
/-- The 64 x 32 weight, whole at every point. -/
private abbrev wgt (c : Dev nD) (t : Fin cfg1.N) : Vec Ideal S64x32 .f32 := iblk1 V c 3 t

/-- Entry (p, k) of the aggregate's block at t is entry (5000 t + p, k) of the array. -/
private theorem agg_apply (c : Dev nD) (t : Fin cfg1.N) (p : Fin 5000) (k : Fin 64) (n : Fin 50000)
    (hn : n.val = 5000 * t.val + p.val) :
    agg V c t (ix2 p k) = (V c main_v34 : S50000x64.Idx → EReal) (ix2 n k) := by
  obtain ⟨e0, e1, -⟩ := idx_facts t
  show V c main_v34 (((cfg1.win 0).blk t).view.emb (ix2 p k)) = V c main_v34 (ix2 n k)
  congr 1
  funext a; apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- Entry (p, 0) of the factors' block at t is entry (5000 t + p, 0) of the array. -/
private theorem dinv_apply (c : Dev nD) (t : Fin cfg1.N) (p : Fin 5000) (n : Fin 50000)
    (hn : n.val = 5000 * t.val + p.val) :
    dinv V c t (ix2 p (0 : Fin 1)) = (V c main_v16 : S50000x1.Idx → EReal) (ix2 n (0 : Fin 1)) := by
  obtain ⟨-, -, e0, e1, -⟩ := idx_facts t
  show V c main_v16 (((cfg1.win 1).blk t).view.emb (ix2 p (0 : Fin 1))) = V c main_v16 (ix2 n (0 : Fin 1))
  congr 1
  funext a; apply Fin.ext
  match a with
  | ⟨0, _⟩ => show win1_1.index t (0 : Fin 2) * 5000 + 1 * p.val = n.val; rw [e0, hn]; omega
  | ⟨1, _⟩ => show win1_1.index t (1 : Fin 2) * 1 + 1 * 0 = 0; rw [e1]

/-- The bias row's block is the row. -/
private theorem bias_apply (c : Dev nD) (t : Fin cfg1.N) (k : Fin 64) :
    bias V c t (ix2 (0 : Fin 1) k) = (V c main_v35 : S1x64.Idx → EReal) (ix2 (0 : Fin 1) k) := by
  obtain ⟨-, -, -, -, e0, e1, -⟩ := idx_facts t
  show V c main_v35 (((cfg1.win 2).blk t).view.emb (ix2 (0 : Fin 1) k)) = V c main_v35 (ix2 (0 : Fin 1) k)
  congr 1
  funext a; apply Fin.ext
  match a with
  | ⟨0, _⟩ => show win1_2.index t (0 : Fin 2) * 1 + 1 * 0 = 0; rw [e0]
  | ⟨1, _⟩ => show win1_2.index t (1 : Fin 2) * 64 + 1 * k.val = k.val; rw [e1]; omega

/-- The weight's block is the weight. -/
private theorem wgt_apply (c : Dev nD) (t : Fin cfg1.N) (k : Fin 64) (q : Fin 32) :
    wgt V c t (ix2 k q) = (V c main_arg7 : S64x32.Idx → EReal) (ix2 k q) := by
  obtain ⟨-, -, -, -, -, -, e0, e1, -⟩ := idx_facts t
  show V c main_arg7 (((cfg1.win 3).blk t).view.emb (ix2 k q)) = V c main_arg7 (ix2 k q)
  congr 1
  funext a; apply Fin.ext
  match a with
  | ⟨0, _⟩ => show win1_3.index t (0 : Fin 2) * 64 + 1 * k.val = k.val; rw [e0]; omega
  | ⟨1, _⟩ => show win1_3.index t (1 : Fin 2) * 32 + 1 * q.val = q.val; rw [e1]; omega

/-- The body's value at entry (p, q) of point t's block is the layer-2 dense stage of the whole arrays at
    (5000 t + p, q). -/
private theorem pay_blocks (c : Dev nD) (t : Fin cfg1.N) (p : Fin 5000) (q : Fin 32) (n : Fin 50000)
    (hn : n.val = 5000 * t.val + p.val) :
    k1_pay1 (F := Ideal) (agg V c t) (dinv V c t) (bias V c t) (wgt V c t) (dinv V c t) (ix2 p q)
      = Cert.Gcn.dense2 (V c main_v34) (V c main_v16) (V c main_v35) (V c main_arg7) (ix2 n q) := by
  rw [pay_apply, Cert.Gcn.dense2_apply, dinv_apply V c t p n hn]
  refine congrArg (fun s : EReal => s * (V c main_v16 : S50000x1.Idx → EReal) (ix2 n (0 : Fin 1))) ?_
  refine Finset.sum_congr rfl fun k _ => ?_
  rw [agg_apply V c t p k n hn, bias_apply, wgt_apply]

/-! ## What each point writes back, and the array after the ten points -/

/-- What point t writes back is block t of the layer-2 dense stage of the whole arrays. -/
private theorem flushed_eq (c : Dev nD) (t : Fin cfg1.N) :
    (dat1 (F := Ideal) V c).flushed 4 t
      = ((cfg1.win 4).blk t).view.read (Elt Ideal)
          (Cert.Gcn.dense2 (V c main_v34) (V c main_v16) (V c main_v35) (V c main_arg7)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz,
    View.ld_unit_zero (S := S1x64) hz, View.ld_unit_zero (S := S64x32) hz]
  funext j
  obtain ⟨-, -, -, -, -, -, -, -, e0, e1⟩ := idx_facts t
  have ht := t_lt t
  have hp : (j 0).val < 5000 := (j 0).isLt
  have hq : (j 1).val < 32 := (j 1).isLt
  -- entry (p, q) of the output's block at t is entry (5000 t + p, q) of the array
  have hemb : ((cfg1.win 4).blk t).view.emb j
      = ix2 (⟨5000 * t.val + (j 0).val, by omega⟩ : Fin 50000) (⟨(j 1).val, hq⟩ : Fin 32) := by
    funext a; apply Fin.ext
    match a with
    | ⟨0, _⟩ => show win1_4.index t (0 : Fin 2) * 5000 + 1 * (j 0).val = 5000 * t.val + (j 0).val; rw [e0]; omega
    | ⟨1, _⟩ => show win1_4.index t (1 : Fin 2) * 32 + 1 * (j 1).val = (j 1).val; rw [e1]; omega
  have hj : (j : S5000x32.Idx) = ix2 (⟨(j 0).val, hp⟩ : Fin 5000) (⟨(j 1).val, hq⟩ : Fin 32) :=
    funext fun a => by match a with | ⟨0, _⟩ => rfl | ⟨1, _⟩ => rfl
  show k1_pay1 (F := Ideal) (agg V c t) (dinv V c t) (bias V c t) (wgt V c t) (dinv V c t) j
      = Cert.Gcn.dense2 (V c main_v34) (V c main_v16) (V c main_v35) (V c main_arg7) (((cfg1.win 4).blk t).view.emb j)
  rw [hemb]
  exact (congrArg (k1_pay1 (F := Ideal) (agg V c t) (dinv V c t) (bias V c t) (wgt V c t) (dinv V c t)) hj).trans
    (pay_blocks V c t ⟨(j 0).val, hp⟩ ⟨(j 1).val, hq⟩ ⟨5000 * t.val + (j 0).val, by omega⟩ rfl)

/-- An entry of the output array is in point t's block iff each coordinate is in the block's range on its axis. -/
private theorem mem_blk (t : Fin cfg1.N) (i : S50000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v36).slice (win1_4.rect t)).set ↔ _
  rw [View.set_slice_whole, Rect.mem_set_unit]
  exact Iff.rfl

/-- The ten blocks cover the array: row r is in the block of point r / 5000. -/
private theorem cover (i : S50000x32.Idx) :
    ∃ t : Fin cfg1.N, (cfg1.win 4).flush t = true ∧ i ∈ ((cfg1.win 4).blk t).view.set := by
  have hi0 : (i 0).val < 50000 := (i 0).isLt
  have hi1 : (i 1).val < 32 := (i 1).isLt
  obtain ⟨t, ht⟩ : ∃ t : Fin cfg1.N, t.val = (i 0).val / 5000 :=
    ⟨⟨(i 0).val / 5000, Nat.lt_of_lt_of_eq (by omega : (i 0).val / 5000 < 10) N_1.symm⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- The array region 1 writes, after its ten points: the layer-2 dense stage of the four arrays it reads. -/
theorem array (c : Dev nD) :
    (dat1 (F := Ideal) V c).arrAt 4 cfg1.N
      = Cert.Gcn.dense2 (V c main_v34) (V c main_v16) (V c main_v35) (V c main_arg7) :=
  (dat1 V c).arrAt_eq_of_cover 4 (Cert.Gcn.dense2 (V c main_v34) (V c main_v16) (V c main_v35) (V c main_arg7))
    (fun t _ => flushed_eq V c t) (cover)

end Cert.KernelIdeal.Region1

end
-- ==== Proof.KFold.lean ====
/-
  The kernel program's result buffer, read back through its seven segments to the launch memory.

  The last boundary's contents at the result buffer are the last stretch's operations applied to region 1's
  output array and to buffers no later segment writes; region 1's output array is the layer-2 dense stage of
  what the middle stretch leaves, which is the aggregate of region 0's output array; region 0's output array is
  the layer-1 dense stage of what the first stretches leave.  A region leaves its input arrays and every buffer
  that is not one of its arrays as it found them.
-/
import proofs.«413241_j45346264711627_3_alg».proof.Proof.KHost
import proofs.«413241_j45346264711627_3_alg».proof.Proof.Region0
import proofs.«413241_j45346264711627_3_alg».proof.Proof.Region1

set_option maxRecDepth 16384

noncomputable section

namespace Cert.KernelIdeal.Fold

open Cert.KernelIdeal Cert.KernelIdeal.Gen Cert.KernelIdeal.HostVal Idealize.ShloMosaic Idealize.ShloMosaic.TcCoe
open Idealize.ShloMosaic.StableHlo Idealize.SL.Sem Idealize.ShloMosaic.Pipeline

variable (m : (ℓ : Loc nD τ sig) → Buf (Elt Ideal) ℓ) (ρ : Dev nD → PrngReg) (c : Dev nD)

/-! ## Region 0's entry contents -/

theorem w3 (b : Ref sig .tc) : W3 m ρ c (Proc.devRef .tc b) = head (W0 m ρ c) (Proc.devRef .tc b) := rfl

theorem w3_v16 : W3 m ρ c (Proc.devRef .tc main_v16) = dcol (m ((c : Thread nD τ).loc main_arg2)) (m ((c : Thread nD τ).loc main_arg3)) :=
  (w3 m ρ c main_v16).trans (head_v16 (W0 m ρ c))
theorem w3_v17 : W3 m ρ c (Proc.devRef .tc main_v17) = cidcol (m ((c : Thread nD τ).loc main_arg1)) :=
  (w3 m ρ c main_v17).trans (head_v17 (W0 m ρ c))
theorem w3_v18 : W3 m ρ c (Proc.devRef .tc main_v18) = w1a (m ((c : Thread nD τ).loc main_arg5)) :=
  (w3 m ρ c main_v18).trans (head_v18 (W0 m ρ c))
theorem w3_v20 : W3 m ρ c (Proc.devRef .tc main_v20) = tbl (m ((c : Thread nD τ).loc main_arg4)) (m ((c : Thread nD τ).loc main_arg5)) :=
  (w3 m ρ c main_v20).trans (head_v20 (W0 m ρ c))
theorem w3_v5 : W3 m ρ c (Proc.devRef .tc main_v5) = rowI (m ((c : Thread nD τ).loc main_arg2)) :=
  (w3 m ρ c main_v5).trans (head_v5 (W0 m ρ c))
theorem w3_v6 : W3 m ρ c (Proc.devRef .tc main_v6) = colI (m ((c : Thread nD τ).loc main_arg2)) :=
  (w3 m ρ c main_v6).trans (head_v6 (W0 m ρ c))
theorem w3_v8 : W3 m ρ c (Proc.devRef .tc main_v8) = wts (m ((c : Thread nD τ).loc main_arg3)) :=
  (w3 m ρ c main_v8).trans (head_v8 (W0 m ρ c))
theorem w3_arg0 : W3 m ρ c (Proc.devRef .tc main_arg0) = m ((c : Thread nD τ).loc main_arg0) :=
  (w3 m ρ c main_arg0).trans (head_arg0 (W0 m ρ c))
theorem w3_arg6 : W3 m ρ c (Proc.devRef .tc main_arg6) = m ((c : Thread nD τ).loc main_arg6) :=
  (w3 m ρ c main_arg6).trans (head_arg6 (W0 m ρ c))
theorem w3_arg7 : W3 m ρ c (Proc.devRef .tc main_arg7) = m ((c : Thread nD τ).loc main_arg7) :=
  (w3 m ρ c main_arg7).trans (head_arg7 (W0 m ρ c))
theorem w3_arg8 : W3 m ρ c (Proc.devRef .tc main_arg8) = m ((c : Thread nD τ).loc main_arg8) :=
  (w3 m ρ c main_arg8).trans (head_arg8 (W0 m ρ c))

/-! ## Region 0's exit contents -/

/-- Region 0's output array: the layer-1 dense stage of the arguments. -/
theorem w4_v21 : W4 m ρ c (Proc.devRef .tc main_v21)
    = Cert.Gcn.dense1 (m ((c : Thread nD τ).loc main_arg0)) (cidcol (m ((c : Thread nD τ).loc main_arg1)))
        (tbl (m ((c : Thread nD τ).loc main_arg4)) (m ((c : Thread nD τ).loc main_arg5))) (w1a (m ((c : Thread nD τ).loc main_arg5)))
        (dcol (m ((c : Thread nD τ).loc main_arg2)) (m ((c : Thread nD τ).loc main_arg3))) := by
  refine ((W4_arr m ρ c 5).trans (Region0.array (V3 m ρ) c)).trans ?_
  show Cert.Gcn.dense1 (W3 m ρ c (Proc.devRef .tc main_arg0)) (W3 m ρ c (Proc.devRef .tc main_v17)) (W3 m ρ c (Proc.devRef .tc main_v20))
      (W3 m ρ c (Proc.devRef .tc main_v18)) (W3 m ρ c (Proc.devRef .tc main_v16)) = _
  rw [w3_arg0, w3_v17, w3_v20, w3_v18, w3_v16]
/-- The factor column is an input array of region 0: unchanged. -/
theorem w4_v16 : W4 m ρ c (Proc.devRef .tc main_v16) = dcol (m ((c : Thread nD τ).loc main_arg2)) (m ((c : Thread nD τ).loc main_arg3)) :=
  ((W4_arr m ρ c 4).trans (((dat0 (V3 m ρ) c).arrAt_in 4 rfl _).trans (A_eq0 (V3 m ρ) c 4))).trans (w3_v16 m ρ c)
theorem w4_v5 : W4 m ρ c (Proc.devRef .tc main_v5) = rowI (m ((c : Thread nD τ).loc main_arg2)) :=
  (W4_of_ne m ρ c main_v5 (by decide)).trans (w3_v5 m ρ c)
theorem w4_v6 : W4 m ρ c (Proc.devRef .tc main_v6) = colI (m ((c : Thread nD τ).loc main_arg2)) :=
  (W4_of_ne m ρ c main_v6 (by decide)).trans (w3_v6 m ρ c)
theorem w4_v8 : W4 m ρ c (Proc.devRef .tc main_v8) = wts (m ((c : Thread nD τ).loc main_arg3)) :=
  (W4_of_ne m ρ c main_v8 (by decide)).trans (w3_v8 m ρ c)
theorem w4_arg6 : W4 m ρ c (Proc.devRef .tc main_arg6) = m ((c : Thread nD τ).loc main_arg6) :=
  (W4_of_ne m ρ c main_arg6 (by decide)).trans (w3_arg6 m ρ c)
theorem w4_arg7 : W4 m ρ c (Proc.devRef .tc main_arg7) = m ((c : Thread nD τ).loc main_arg7) :=
  (W4_of_ne m ρ c main_arg7 (by decide)).trans (w3_arg7 m ρ c)
theorem w4_arg8 : W4 m ρ c (Proc.devRef .tc main_arg8) = m ((c : Thread nD τ).loc main_arg8) :=
  (W4_of_ne m ρ c main_arg8 (by decide)).trans (w3_arg8 m ρ c)

/-! ## Region 1's entry contents -/

theorem w5 (b : Ref sig .tc) : W5 m ρ c (Proc.devRef .tc b) = StableHlo.after (hostOps1 (F := Ideal)) (W4 m ρ c) (Proc.devRef .tc b) := rfl

/-- The first aggregate. -/
abbrev agg1 : FVec Ideal S50000x64 .f32 :=
  agg64 (Cert.Gcn.dense1 (m ((c : Thread nD τ).loc main_arg0)) (cidcol (m ((c : Thread nD τ).loc main_arg1)))
        (tbl (m ((c : Thread nD τ).loc main_arg4)) (m ((c : Thread nD τ).loc main_arg5))) (w1a (m ((c : Thread nD τ).loc main_arg5)))
        (dcol (m ((c : Thread nD τ).loc main_arg2)) (m ((c : Thread nD τ).loc main_arg3))))
    (rowI (m ((c : Thread nD τ).loc main_arg2))) (colI (m ((c : Thread nD τ).loc main_arg2))) (wts (m ((c : Thread nD τ).loc main_arg3)))

theorem w5_v34 : W5 m ρ c (Proc.devRef .tc main_v34) = agg1 m c := by
  rw [w5, mid_v34, w4_v21, w4_v5, w4_v6, w4_v8]
theorem w5_v35 : W5 m ρ c (Proc.devRef .tc main_v35) = b1row (m ((c : Thread nD τ).loc main_arg6)) := by
  rw [w5, mid_v35, w4_arg6]
theorem w5_v16 : W5 m ρ c (Proc.devRef .tc main_v16) = dcol (m ((c : Thread nD τ).loc main_arg2)) (m ((c : Thread nD τ).loc main_arg3)) := by
  rw [w5, mid_v16, w4_v16]
theorem w5_v5 : W5 m ρ c (Proc.devRef .tc main_v5) = rowI (m ((c : Thread nD τ).loc main_arg2)) := by rw [w5, mid_v5, w4_v5]
theorem w5_v6 : W5 m ρ c (Proc.devRef .tc main_v6) = colI (m ((c : Thread nD τ).loc main_arg2)) := by rw [w5, mid_v6, w4_v6]
theorem w5_v8 : W5 m ρ c (Proc.devRef .tc main_v8) = wts (m ((c : Thread nD τ).loc main_arg3)) := by rw [w5, mid_v8, w4_v8]
theorem w5_arg7 : W5 m ρ c (Proc.devRef .tc main_arg7) = m ((c : Thread nD τ).loc main_arg7) := by rw [w5, mid_arg7, w4_arg7]
theorem w5_arg8 : W5 m ρ c (Proc.devRef .tc main_arg8) = m ((c : Thread nD τ).loc main_arg8) := by rw [w5, mid_arg8, w4_arg8]

/-! ## Region 1's exit contents -/

/-- Region 1's output array: the layer-2 dense stage of the first aggregate. -/
theorem w6_v36 : W6 m ρ c (Proc.devRef .tc main_v36)
    = Cert.Gcn.dense2 (agg1 m c) (dcol (m ((c : Thread nD τ).loc main_arg2)) (m ((c : Thread nD τ).loc main_arg3)))
        (b1row (m ((c : Thread nD τ).loc main_arg6))) (m ((c : Thread nD τ).loc main_arg7)) := by
  refine ((W6_arr m ρ c 4).trans (Region1.array (V5 m ρ) c)).trans ?_
  show Cert.Gcn.dense2 (W5 m ρ c (Proc.devRef .tc main_v34)) (W5 m ρ c (Proc.devRef .tc main_v16)) (W5 m ρ c (Proc.devRef .tc main_v35))
      (W5 m ρ c (Proc.devRef .tc main_arg7)) = _
  rw [w5_v34, w5_v16, w5_v35, w5_arg7]
theorem w6_v16 : W6 m ρ c (Proc.devRef .tc main_v16) = dcol (m ((c : Thread nD τ).loc main_arg2)) (m ((c : Thread nD τ).loc main_arg3)) :=
  ((W6_arr m ρ c 1).trans (((dat1 (V5 m ρ) c).arrAt_in 1 rfl _).trans (A_eq1 (V5 m ρ) c 1))).trans (w5_v16 m ρ c)
theorem w6_v5 : W6 m ρ c (Proc.devRef .tc main_v5) = rowI (m ((c : Thread nD τ).loc main_arg2)) :=
  (W6_of_ne m ρ c main_v5 (by decide)).trans (w5_v5 m ρ c)
theorem w6_v6 : W6 m ρ c (Proc.devRef .tc main_v6) = colI (m ((c : Thread nD τ).loc main_arg2)) :=
  (W6_of_ne m ρ c main_v6 (by decide)).trans (w5_v6 m ρ c)
theorem w6_v8 : W6 m ρ c (Proc.devRef .tc main_v8) = wts (m ((c : Thread nD τ).loc main_arg3)) :=
  (W6_of_ne m ρ c main_v8 (by decide)).trans (w5_v8 m ρ c)
theorem w6_arg8 : W6 m ρ c (Proc.devRef .tc main_arg8) = m ((c : Thread nD τ).loc main_arg8) :=
  (W6_of_ne m ρ c main_arg8 (by decide)).trans (w5_arg8 m ρ c)

/-! ## The result buffer -/

/-- The last boundary's contents at the result buffer: the composed function of the nine arguments. -/
theorem w7_v54 : W7 m ρ c (Proc.devRef .tc main_v54)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  show StableHlo.after (hostOps2 (F := Ideal)) (W6 m ρ c) (Proc.devRef .tc main_v54) = _
  rw [tail_v54, w6_v36, w6_v16, w6_v5, w6_v6, w6_v8, w6_arg8]
  rfl

end Cert.KernelIdeal.Fold

end
-- ==== Proof.Shared.lean ====
/-
  The pieces the two programs share.  Both build the edge lists with self-loops, the edge weights, the weighted
  in-degree and the factor dinv = deg^(-1/2) (0 where the degree is not positive) by the same operations, so those are
  the same functions of the arguments; and the reference's two aggregations are written here over those pieces with the
  per-edge coefficient dinv[row] · w · dinv[col].
-/
import proofs.«413241_j45346264711627_3_alg».proof.Proof.KHost
import proofs.«413241_j45346264711627_3_alg».proof.Proof.Gen.ReferenceIdeal.Read

set_option maxRecDepth 16384

noncomputable section

namespace Cert.Bridge

open Cert.KernelIdeal Cert.KernelIdeal.Gen Cert.KernelIdeal.HostVal Cert.ReferenceIdeal.Read
open Idealize.ShloMosaic Idealize.ShloMosaic.ValueIdx Cert.Gcn

variable (x0 : FVec Ideal S50000x128 .f32) (x1 : IVec S50000 32) (x2 : IVec S2x1600000 32) (x3 : FVec Ideal S1600000 .f32)
  (x4 : FVec Ideal S16x4 .f32) (x5 : FVec Ideal S132x64 .f32) (x6 : FVec Ideal S64 .f32) (x7 : FVec Ideal S64x32 .f32)
  (x8 : FVec Ideal S32 .f32)

/-! ## The shared stages are the same functions -/

theorem ref_row : val_main_v5 (F := Ideal) x2 = rowI x2 := rfl
theorem ref_col : val_main_v6 (F := Ideal) x2 = colI x2 := rfl
theorem ref_w : val_main_v8 (F := Ideal) x3 = wts x3 := rfl
theorem ref_dinv : val_main_v23 (F := Ideal) x2 x3 = dinv x2 x3 := rfl
theorem ref_dinv' : val_main_v64 (F := Ideal) x2 x3 = dinv x2 x3 := rfl

/-- The reference's per-edge coefficient dinv[row] · w · dinv[col]. -/
def norm (x2 : IVec S2x1600000 32) (x3 : FVec Ideal S1600000 .f32) : FVec Ideal S1650000 .f32 :=
  mulf (mulf (Host.gather Cert.ReferenceIdeal.gather_S50000_S1650000x1_S1650000_n_0_n_n_0_1_1 (dinv x2 x3) (wrapCol (rowI x2))) (wts x3))
    (Host.gather Cert.ReferenceIdeal.gather_S50000_S1650000x1_S1650000_n_0_n_n_0_1_1 (dinv x2 x3) (wrapCol (colI x2)))

theorem ref_norm : val_main_v39 (F := Ideal) x2 x3 = norm x2 x3 := rfl
theorem ref_norm' : val_main_v80 (F := Ideal) x2 x3 = norm x2 x3 := rfl

/-- The reference's aggregation of a 64-channel array. -/
def refAgg64 (h : FVec Ideal S50000x64 .f32) (x2 : IVec S2x1600000 32) (x3 : FVec Ideal S1600000 .f32) : FVec Ideal S50000x64 .f32 :=
  Host.scatterAdd scatter_S50000x64_S1650000x1_S1650000x64_1_0_0_1 (broadcastInDim S50000x64 ![] bcast_S_S50000x64 (constant S_ .f32 0x00000000#32))
    (broadcastInDim S1650000x1 ![0] bcast_S1650000_S1650000x1_0 (colI x2))
    (mulf (Host.gather gather_S50000x64_S1650000x1_S1650000x64_1_0_n_n_0_1_164 h (wrapCol (rowI x2)))
      (broadcastInDim S1650000x64 ![0, 1] bcast_S1650000x1_S1650000x64_0_1 (broadcastInDim S1650000x1 ![0] bcast_S1650000_S1650000x1_0 (norm x2 x3))))
/-- The same of a 32-channel array. -/
def refAgg32 (h : FVec Ideal S50000x32 .f32) (x2 : IVec S2x1600000 32) (x3 : FVec Ideal S1600000 .f32) : FVec Ideal S50000x32 .f32 :=
  Host.scatterAdd scatter_S50000x32_S1650000x1_S1650000x32_1_0_0_1 (broadcastInDim S50000x32 ![] bcast_S_S50000x32 (constant S_ .f32 0x00000000#32))
    (broadcastInDim S1650000x1 ![0] bcast_S1650000_S1650000x1_0 (colI x2))
    (mulf (Host.gather gather_S50000x32_S1650000x1_S1650000x32_1_0_n_n_0_1_132 h (wrapCol (rowI x2)))
      (broadcastInDim S1650000x32 ![0, 1] bcast_S1650000x1_S1650000x32_0_1 (broadcastInDim S1650000x1 ![0] bcast_S1650000_S1650000x1_0 (norm x2 x3))))

theorem ref_v53 : val_main_v53 (F := Ideal) x0 x1 x2 x3 x4 x5 = refAgg64 (val_main_v40 (F := Ideal) x0 x1 x4 x5) x2 x3 := rfl
theorem ref_v94 : val_main_v94 (F := Ideal) x0 x1 x2 x3 x4 x5 x6 x7 = refAgg32 (val_main_v81 (F := Ideal) x0 x1 x2 x3 x4 x5 x6 x7) x2 x3 := rfl

end Cert.Bridge

end
-- ==== Proof.LibRows.lean ====
/-
  Rows taken from, and rows added into, a two-dimensional table: `stablehlo.gather` and the accumulating
  `stablehlo.scatter` with one start index per row, read at an index.

  `table[idx]` over a table of N rows and K columns reads, at result position (e, q), the table's entry
  (r, q) where r is the e-th start index read as a signed integer and clamped into [0, N - 1].  The
  accumulating scatter with the same dimension numbers sends update (e, q) to table entry (r, q) where r
  is the e-th start index read signed and NOT clamped: the update is dropped when r is outside [0, N).
-/
import Idealize.ShloMosaic.PureOps.Ideal
import Idealize.ShloMosaic.Lib.ValueIdx
import Idealize.ShloMosaic.Lib.StableHlo.Predicate

noncomputable section

namespace Cert.LibRows

open Idealize.ShloMosaic Idealize.ShloMosaic.ValueIdx

/-- A start index read as a signed integer and clamped into the rows [0, N - 1] of a table. -/
def clampRow (N : Nat) (hN : 0 < N) {w : Nat} (b : BitVec w) : Fin N := ⟨min b.toInt.toNat (N - 1), by omega⟩

/-- A start index that, read signed, IS the row `r` clamps to `r`. -/
theorem clampRow_of_toInt {N : Nat} (hN : 0 < N) {w : Nat} (b : BitVec w) (r : Fin N) (h : b.toInt = (r.val : Int)) :
    clampRow N hN b = r := by
  apply Fin.ext
  show min b.toInt.toNat (N - 1) = r.val
  have hr := r.isLt
  rw [h, Int.toNat_natCast]
  omega

/-- Rows of a two-dimensional table taken at a column of start indices: result (e, q) is the table at
    (the e-th start index clamped, q). -/
theorem gather_rows_apply {α : Type} {N E K w : Nat} (hN : 0 < N)
    (d : GatherDims ⟨2, ![N, K]⟩ ⟨2, ![E, 1]⟩ ⟨2, ![E, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, K]⟩ : Shape).Idx → α) (idx : IVec ⟨2, ![E, 1]⟩ w) (e : Fin E) (q : Fin K) :
    Host.gather d x idx (ix2 e q) = x (ix2 (clampRow N hN (idx (ix2 e (0 : Fin 1)))) q) := by
  unfold Host.gather
  congr 1
  funext a
  have hb : ∀ a : Fin 2, a ∉ d.operandBatchingDims := fun a => by rw [hob]; exact List.not_mem_nil
  -- the result's batch axes are [0], its offset axes [1]
  have hbd : d.batchDims = [0] := by
    show Shape.kept _ d.offsetDims = [0]
    rw [hoff]; rfl
  have hbm : ∀ a ∈ d.batchDims, a = 0 := fun a ha => by
    rw [hbd] at ha; exact List.mem_singleton.mp ha
  have hom : ∀ a ∈ d.offsetDims, a = 1 := fun a ha => by
    rw [hoff] at ha; exact List.mem_singleton.mp ha
  have hb0 : ∀ (i : Nat) (hi : i < d.batchDims.length), d.batchDims[i] = 0 := fun i hi =>
    hbm _ (List.getElem_mem hi)
  have ho1 : ∀ (i : Nat) (hi : i < d.offsetDims.length), d.offsetDims[i] = 1 := fun i hi =>
    hom _ (List.getElem_mem hi)
  have c0 : ∀ a : Fin 2, a = 0 → ((ix2 e q) a).val = e.val := by rintro _ rfl; rfl
  have c1 : ∀ a : Fin 2, a = 1 → ((ix2 e q) a).val = q.val := by rintro _ rfl; rfl
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = _
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact c0 _ (hb0 _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start GatherDims.offCoord
    rw [dif_neg hm, dif_pos hk, Nat.zero_add]
    exact c1 _ (ho1 _ _)

/-- Entries of a one-dimensional table taken at a column of start indices: result e is the table at the
    e-th start index clamped. -/
theorem gather_take_apply1 {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (clampRow N hN (idx (ix2 e (0 : Fin 1))))) := by
  -- the two spellings of a rank-1 index, and of row e of a one-column table, agree coordinate by coordinate
  have e1 : ∀ {n : Nat} (k : Fin n), (Shape.Idx.ofFin k : (⟨1, ![n]⟩ : Shape).Idx) = ix1 k := fun k => by
    funext a; match a with | ⟨0, _⟩ => rfl
  have e2 : StableHlo.Predicate.ixP e = ix2 e (0 : Fin 1) := by
    funext a; match a with | ⟨0, _⟩ => rfl | ⟨1, _⟩ => rfl
  rw [← e1 e, StableHlo.Predicate.gather_take d hcoll hob hsim hivd x idx e hN, e1]
  congr 2
  apply Fin.ext
  show min (idx (StableHlo.Predicate.ixP e)).toInt.toNat (N - 1) = min (idx (ix2 e (0 : Fin 1))).toInt.toNat (N - 1)
  rw [e2]

/-- Where update (e, q) of a row scatter lands: at table entry (r, q) exactly when the e-th start index,
    read signed, is the row r. -/
theorem scatter_rows_result {N E K w : Nat}
    (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hivd : d.indexVectorDim = 1)
    (idx : IVec ⟨2, ![E, 1]⟩ w) (e : Fin E) (q : Fin K) (r : Fin N) (q' : Fin K) :
    d.resultIdx? (ix2 e q) idx = some (ix2 r q') ↔ ((idx (ix2 e (0 : Fin 1))).toInt = (r.val : Int) ∧ q = q') := by
  have hin0 : (0 : Fin 2) ∈ d.scatterDimsToOperandDims := by rw [hsd]; exact List.mem_singleton.mpr rfl
  have hnin1 : (1 : Fin 2) ∉ d.scatterDimsToOperandDims := by rw [hsd]; simp
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept]
  -- the update's scatter axes are [0], its window axes [1]
  have hus : d.uScatter = [0] := by
    show Shape.kept _ d.updateWindowDims = [0]
    rw [huw]; rfl
  have husm : ∀ a ∈ d.uScatter, a = 0 := fun a ha => by rw [hus] at ha; exact List.mem_singleton.mp ha
  have huwm : ∀ a ∈ d.updateWindowDims, a = 1 := fun a ha => by rw [huw] at ha; exact List.mem_singleton.mp ha
  have c0 : ∀ a : Fin 2, a = 0 → ((ix2 e q) a).val = e.val := by rintro _ rfl; rfl
  have c1 : ∀ a : Fin 2, a = 1 → ((ix2 e q) a).val = q.val := by rintro _ rfl; rfl
  -- axis 0: the start is the e-th start index read signed, the window coordinate 0
  have hs0 : d.start (ix2 e q) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _ (husm _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e q) 0 = 0 := by
    unfold ScatterDims.window; rw [dif_neg hk0]
  -- axis 1: the start is 0, the window coordinate q
  have hs1 : d.start (ix2 e q) idx 1 = 0 := by
    unfold ScatterDims.start; rw [dif_neg hnin1]
  have hw1 : d.window (ix2 e q) 1 = q.val := by
    unfold ScatterDims.window; rw [dif_pos hk1]
    exact c1 _ (huwm _ (List.getElem_mem _))
  have hr := r.isLt
  have hq := q.isLt
  have hq' := q'.isLt
  unfold ScatterDims.resultIdx?
  split
  · next h =>
    rw [Option.some.injEq]
    constructor
    · intro heq
      have h0 : (d.start (ix2 e q) idx 0 + d.window (ix2 e q) 0).toNat = r.val := congrArg (fun f => (f 0).val) heq
      have h1 : (d.start (ix2 e q) idx 1 + d.window (ix2 e q) 1).toNat = q'.val := congrArg (fun f => (f 1).val) heq
      have hh0 := (h 0).1
      rw [hs0, hw0] at h0 hh0
      rw [hs1, hw1] at h1
      exact ⟨by omega, Fin.ext (by omega)⟩
    · rintro ⟨hr', hqq⟩
      funext a
      match a with
      | ⟨0, _⟩ =>
        apply Fin.ext
        show (d.start (ix2 e q) idx 0 + d.window (ix2 e q) 0).toNat = r.val
        rw [hs0, hw0, hr']; omega
      | ⟨1, _⟩ =>
        apply Fin.ext
        show (d.start (ix2 e q) idx 1 + d.window (ix2 e q) 1).toNat = q'.val
        rw [hs1, hw1, hqq]; omega
  · next h =>
    constructor
    · intro heq; exact absurd heq (by simp)
    · rintro ⟨hr', hqq⟩
      exfalso; apply h
      intro a
      match a with
      | ⟨0, _⟩ =>
        show 0 ≤ d.start (ix2 e q) idx 0 + d.window (ix2 e q) 0 ∧ d.start (ix2 e q) idx 0 + d.window (ix2 e q) 0 < (N : Int)
        rw [hs0, hw0, hr']; omega
      | ⟨1, _⟩ =>
        show 0 ≤ d.start (ix2 e q) idx 1 + d.window (ix2 e q) 1 ∧ d.start (ix2 e q) idx 1 + d.window (ix2 e q) 1 < (K : Int)
        rw [hs1, hw1]; omega

end Cert.LibRows

end
-- ==== Proof.EmbedMath.lean ====
/-
  Layer 1 without the concatenation.  The reference multiplies the 132-wide row [x | table[id]] by the
  132 x 64 weight; the kernel multiplies the 128 features by the weight's first 128 rows and adds the
  row of T = table · (the weight's last 4 rows) that the id selects, written as a sum against the id's
  one-hot row.  Over the extended reals the two are the same sum: the 132 terms split into 128 and 4,
  a sum against a one-hot row is the selected entry (0 · y = 0 and 1 · y = y hold for every extended
  real y), and the kernel's signed clamp of the wrapped id is the gather's clamp of the same wrapped id.
  No finiteness is used: only that + and · are commutative monoid operations.
-/
import proofs.«413241_j45346264711627_3_alg».proof.Proof.Spec
import proofs.«413241_j45346264711627_3_alg».proof.Proof.LibRows
import Idealize.ShloMosaic.PureOps.Ideal
import Idealize.ShloMosaic.Lib.ValueIdx

noncomputable section

open scoped BigOperators

namespace Cert.Gcn

open Idealize.ShloMosaic Idealize.ShloMosaic.ValueIdx Cert.LibRows

/-- A configuration id as the reference wraps it before its table lookup: a negative id plus 16. -/
def wrapId (v : BitVec 32) : BitVec 32 := Scalar.select (IntOp.cmpi .slt v 0#32) (IntOp.addi v 16#32) v

/-- The kernel's signed clamp to [0, 15] of the wrapped id is the lookup's clamp of it (read signed, clamped
    into the table's 16 rows). -/
theorem tableId_toNat (v : BitVec 32) : (tableId v).toNat = (clampRow 16 (by decide) (wrapId v)).val := by
  show (IntOp.minsi 15#32 (IntOp.maxsi 0#32 (wrapId v))).toNat = min (wrapId v).toInt.toNat (16 - 1)
  generalize wrapId v = w
  have h15 : (15#32 : BitVec 32).toInt = 15 := by decide
  have h0 : (0#32 : BitVec 32).toInt = 0 := by decide
  have hw := BitVec.toInt_eq_toNat_cond w
  have hlt := w.isLt
  unfold IntOp.minsi IntOp.maxsi
  by_cases h1 : w.slt 0#32
  · -- a negative wrapped id: both clamps give row 0
    rw [if_pos h1]
    have h150 : ¬ ((15#32 : BitVec 32).slt 0#32) := by decide
    rw [if_neg h150]
    rw [BitVec.slt_iff_toInt_lt, h0] at h1
    have hz : w.toInt.toNat = 0 := by omega
    rw [hz]
    rfl
  · rw [if_neg h1]
    rw [BitVec.slt_iff_toInt_lt, h0] at h1
    by_cases h2 : (15#32 : BitVec 32).slt w
    · -- above 15: both clamps give row 15
      rw [if_pos h2]
      rw [BitVec.slt_iff_toInt_lt, h15] at h2
      show 15 = min w.toInt.toNat (16 - 1)
      omega
    · -- in range: the word read signed is the word read unsigned
      rw [if_neg h2]
      rw [BitVec.slt_iff_toInt_lt, h15] at h2
      omega

/-- Entry `c` of the one-hot row is 1 at the selected row and 0 elsewhere: the compare's bit, widened and
    read signed, is 1 or 0, and two words below 16 are equal exactly when their values are. -/
private theorem onehot_eq (v : BitVec 32) (c : Fin 16) :
    onehot v c = if c = clampRow 16 (by decide) (wrapId v) then 1 else 0 := by
  have hb : ∀ b : Bool, ((BitVec.ofBool b).setWidth 32).toInt = if b then 1 else 0 := by
    intro b
    cases b <;> rfl
  have hc : c.val % 2 ^ 32 = c.val := Nat.mod_eq_of_lt (by have := c.isLt; omega)
  show ((((BitVec.ofBool (tableId v == BitVec.ofNat 32 c.val)).setWidth 32).toInt : ℝ) : EReal) = _
  rw [hb]
  by_cases h : c = clampRow 16 (by decide) (wrapId v)
  · have he : (tableId v == BitVec.ofNat 32 c.val) = true := by
      rw [beq_iff_eq]
      apply BitVec.eq_of_toNat_eq
      rw [tableId_toNat, BitVec.toNat_ofNat, hc, h]
    rw [he, if_pos h]
    simp
  · have he : (tableId v == BitVec.ofNat 32 c.val) = false := by
      rw [beq_eq_false_iff_ne]
      intro hq
      apply h
      apply Fin.ext
      rw [← tableId_toNat, hq, BitVec.toNat_ofNat, hc]
    rw [he, if_neg h]
    simp

/-- A sum against the one-hot row of an id is the entry the id selects. -/
theorem sum_onehot (v : BitVec 32) (f : Fin 16 → EReal) :
    ∑ c : Fin 16, onehot v c * f c = f (clampRow 16 (by decide) (wrapId v)) := by
  rw [Finset.sum_eq_single (clampRow 16 (by decide) (wrapId v))]
  · rw [onehot_eq, if_pos rfl, one_mul]
  · intro c _ hc
    rw [onehot_eq, if_neg hc, zero_mul]
  · intro h
    exact absurd (Finset.mem_univ _) h

/-- The kernel's two products are the reference's one product over the concatenated row. -/
theorem embed_row
    (x0 : (⟨2, ![50000, 128]⟩ : Shape).Idx → EReal) (v : BitVec 32)
    (x4 : (⟨2, ![16, 4]⟩ : Shape).Idx → EReal) (x5 : (⟨2, ![132, 64]⟩ : Shape).Idx → EReal)
    (T : (⟨2, ![16, 64]⟩ : Shape).Idx → EReal) (Wa : (⟨2, ![128, 64]⟩ : Shape).Idx → EReal)
    (H : (⟨2, ![50000, 132]⟩ : Shape).Idx → EReal) (n : Fin 50000) (q : Fin 64)
    (hT : ∀ c : Fin 16, T (ix2 c q) = ∑ k : Fin 4, x4 (ix2 c k) * x5 (ix2 (⟨128 + k.val, by omega⟩ : Fin 132) q))
    (hWa : ∀ k : Fin 128, Wa (ix2 k q) = x5 (ix2 (⟨k.val, by omega⟩ : Fin 132) q))
    (hHx : ∀ k : Fin 128, H (ix2 n (⟨k.val, by omega⟩ : Fin 132)) = x0 (ix2 n k))
    (hHc : ∀ k : Fin 4, H (ix2 n (⟨128 + k.val, by omega⟩ : Fin 132)) = x4 (ix2 (clampRow 16 (by decide) (wrapId v)) k)) :
    (∑ k : Fin 128, x0 (ix2 n k) * Wa (ix2 k q)) + (∑ c : Fin 16, onehot v c * T (ix2 c q))
      = ∑ k : Fin 132, H (ix2 n k) * x5 (ix2 k q) := by
  rw [sum_onehot v (fun c => T (ix2 c q)), hT]
  -- the 132 terms are the first 128 and the last 4
  rw [show (∑ k : Fin 132, H (ix2 n k) * x5 (ix2 k q))
        = ∑ k : Fin (128 + 4), H (ix2 n k) * x5 (ix2 k q) from rfl, Fin.sum_univ_add]
  congr 1
  · apply Finset.sum_congr rfl
    intro k _
    rw [hWa, ← hHx]
    rfl
  · apply Finset.sum_congr rfl
    intro k _
    rw [← hHc]
    rfl

end Cert.Gcn

end
-- ==== Proof.Casts.lean ====
/-
  The reshapes of the kernel program read at an index: a vector kept as a column reads the vector at the row, a
  vector kept as a row reads it at the column; and the last step of the program read at (n, q).
-/
import proofs.«413241_j45346264711627_3_alg».proof.Proof.KHost
import Idealize.ShloMosaic.Lib.Pipeline.Value
import Idealize.ShloMosaic.Lib.ValueLayout

set_option maxRecDepth 16384

noncomputable section

namespace Cert.KernelIdeal.HostVal

open Cert.KernelIdeal Cert.KernelIdeal.Gen Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem dcol_apply (x2 : IVec S2x1600000 32) (x3 : FVec Ideal S1600000 .f32) (n : Fin 50000) :
    dcol x2 x3 (ix2 n (0 : Fin 1)) = dinv x2 x3 (ix1 n) :=
  shapeCast_a_a1_apply (dinv x2 x3) shapeCasts_S50000_S50000x1 n 0

theorem cidcol_apply (x1 : IVec S50000 32) (n : Fin 50000) : cidcol x1 (ix2 n (0 : Fin 1)) = x1 (ix1 n) :=
  shapeCast_a_a1_apply x1 shapeCasts_S50000_S50000x1 n 0

theorem b1row_apply (x6 : FVec Ideal S64 .f32) (k : Fin 64) : b1row x6 (ix2 (0 : Fin 1) k) = x6 (ix1 k) :=
  shapeCast_a_1a_apply x6 shapeCasts_S64_S1x64 0 k

/-- The last step at (n, q): the factor at n times the second aggregate, plus the bias at q. -/
theorem finish_apply (d : FVec Ideal S50000x1 .f32) (a : FVec Ideal S50000x32 .f32) (x8 : FVec Ideal S32 .f32)
    (n : Fin 50000) (q : Fin 32) :
    finish d a x8 (ix2 n q) = d (ix2 n (0 : Fin 1)) * a (ix2 n q) + x8 (ix1 q) := by
  have hd : broadcastInDim S50000x32 ![0, 1] bcast_S50000x1_S50000x32_0_1 d (ix2 n q) = d (ix2 n (0 : Fin 1)) :=
    broadcastInDim_apply _ bcast_S50000x1_S50000x32_0_1 d (ix2 n q) (ix2 n (0 : Fin 1)) (fun a => match a with
      | ⟨0, _⟩ => by show n.val = if (50000 : Nat) = 1 then 0 else n.val; rw [if_neg (by decide)]
      | ⟨1, _⟩ => by show (0 : Nat) = if (1 : Nat) = 1 then 0 else q.val; rw [if_pos rfl])
  have hb : broadcastInDim S50000x32 ![0, 1] bcast_S1x32_S50000x32_0_1 (broadcastInDim S1x32 ![1] bcast_S32_S1x32_1 x8) (ix2 n q) = x8 (ix1 q) :=
    (broadcastInDim_apply _ bcast_S1x32_S50000x32_0_1 _ (ix2 n q) (ix2 (0 : Fin 1) q) (fun a => match a with
      | ⟨0, _⟩ => by show (0 : Nat) = if (1 : Nat) = 1 then 0 else n.val; rw [if_pos rfl]
      | ⟨1, _⟩ => by show q.val = if (32 : Nat) = 1 then 0 else q.val; rw [if_neg (by decide)])).trans
    (broadcastInDim_apply _ bcast_S32_S1x32_1 x8 (ix2 (0 : Fin 1) q) (ix1 q) (fun a => match a with
      | ⟨0, _⟩ => by show q.val = if (32 : Nat) = 1 then 0 else q.val; rw [if_neg (by decide)]))
  unfold finish
  rw [addf_apply, mulf_apply, hd, hb]

end Cert.KernelIdeal.HostVal

end
-- ==== Proof.Dense1.lean ====
/-
  Layer 1's dense stage on the two sides.  The kernel's array is (x · W1[:128] + onehot(id) · (table · W1[128:])) · dinv;
  the reference's product is [x | table[id]] · W1.  Reading the slices, the small product, the concatenation and the
  table lookup at an index brings both to the sums of the embedding identity, so the kernel's entry is the reference's
  entry times dinv at the node.
-/
import proofs.«413241_j45346264711627_3_alg».proof.Proof.Shared
import proofs.«413241_j45346264711627_3_alg».proof.Proof.EmbedMath
import proofs.«413241_j45346264711627_3_alg».proof.Proof.Casts
import Idealize.ShloMosaic.Lib.Pipeline.Value
import Idealize.ShloMosaic.Lib.ValueIdx
import Idealize.ShloMosaic.PureOps.Ideal.Laws

set_option maxRecDepth 16384

noncomputable section

open scoped BigOperators

namespace Cert.Bridge

open Cert.KernelIdeal Cert.KernelIdeal.Gen Cert.KernelIdeal.HostVal Cert.ReferenceIdeal.Read
open Idealize.ShloMosaic Idealize.ShloMosaic.ValueIdx Cert.LibRows Cert.Gcn

variable (x0 : FVec Ideal S50000x128 .f32) (x1 : IVec S50000 32) (x2 : IVec S2x1600000 32) (x3 : FVec Ideal S1600000 .f32)
  (x4 : FVec Ideal S16x4 .f32) (x5 : FVec Ideal S132x64 .f32) (x6 : FVec Ideal S64 .f32) (x7 : FVec Ideal S64x32 .f32)
  (x8 : FVec Ideal S32 .f32)

/-! ## The kernel's small product, table · W1[128:], read at an index -/

private theorem lhs_tbl_0 (i : S16x64.Idx) (p : Cert.KernelIdeal.dot_S16x4_S4x64_S16x64_1_0_0_1_n_n.contr.Idx) :
    (Cert.KernelIdeal.dot_S16x4_S4x64_S16x64_1_0_0_1_n_n.lhsIdx i p 0).val = (i 0).val := by
  unfold DotDims.lhsIdx
  rw [dif_neg (show ¬(0 : Fin S16x4.rank) ∈ Cert.KernelIdeal.dot_S16x4_S4x64_S16x64_1_0_0_1_n_n.lhsBatch by decide), dif_pos (show (0 : Fin S16x4.rank) ∈ Cert.KernelIdeal.dot_S16x4_S4x64_S16x64_1_0_0_1_n_n.lhsNonContracting by decide)]
  rfl
private theorem lhs_tbl_1 (i : S16x64.Idx) (p : Cert.KernelIdeal.dot_S16x4_S4x64_S16x64_1_0_0_1_n_n.contr.Idx) :
    (Cert.KernelIdeal.dot_S16x4_S4x64_S16x64_1_0_0_1_n_n.lhsIdx i p 1).val = (p ⟨0, by decide⟩).val :=
  Cert.KernelIdeal.dot_S16x4_S4x64_S16x64_1_0_0_1_n_n.lhsIdx_val_of_single rfl i p
private theorem rhs_tbl_0 (i : S16x64.Idx) (p : Cert.KernelIdeal.dot_S16x4_S4x64_S16x64_1_0_0_1_n_n.contr.Idx) :
    (Cert.KernelIdeal.dot_S16x4_S4x64_S16x64_1_0_0_1_n_n.rhsIdx i p 0).val = (p ⟨0, by decide⟩).val :=
  Cert.KernelIdeal.dot_S16x4_S4x64_S16x64_1_0_0_1_n_n.rhsIdx_val_of_single rfl i p
private theorem rhs_tbl_1 (i : S16x64.Idx) (p : Cert.KernelIdeal.dot_S16x4_S4x64_S16x64_1_0_0_1_n_n.contr.Idx) :
    (Cert.KernelIdeal.dot_S16x4_S4x64_S16x64_1_0_0_1_n_n.rhsIdx i p 1).val = (i 1).val := by
  unfold DotDims.rhsIdx
  rw [dif_neg (show ¬(1 : Fin S4x64.rank) ∈ Cert.KernelIdeal.dot_S16x4_S4x64_S16x64_1_0_0_1_n_n.rhsBatch by decide), dif_pos (show (1 : Fin S4x64.rank) ∈ Cert.KernelIdeal.dot_S16x4_S4x64_S16x64_1_0_0_1_n_n.rhsNonContracting by decide)]
  rfl

/-- The 16 x 4 by 4 x 64 product at (c, q) is the sum over its 4 contracted positions. -/
private theorem dot_16_4_64_apply (a : FVec Ideal S16x4 .f32) (b : FVec Ideal S4x64 .f32) (c : Fin 16) (q : Fin 64) :
    Host.dotGeneral Cert.KernelIdeal.dot_S16x4_S4x64_S16x64_1_0_0_1_n_n none a b (ix2 c q)
      = ∑ k : Fin 4, a (ix2 c k) * b (ix2 k q) := by
  simp only [Host.dotGeneral]
  rw [Ideal.dotGeneral_apply, ← Equiv.sum_comp (ValueIdx.contrEquiv1 Cert.KernelIdeal.dot_S16x4_S4x64_S16x64_1_0_0_1_n_n 4 rfl rfl).symm]
  refine Finset.sum_congr rfl fun k _ => ?_
  have hk := ValueIdx.contrEquiv1_symm_val Cert.KernelIdeal.dot_S16x4_S4x64_S16x64_1_0_0_1_n_n 4 rfl rfl k
  have el : Cert.KernelIdeal.dot_S16x4_S4x64_S16x64_1_0_0_1_n_n.lhsIdx (ix2 c q) ((ValueIdx.contrEquiv1 Cert.KernelIdeal.dot_S16x4_S4x64_S16x64_1_0_0_1_n_n 4 rfl rfl).symm k) = ix2 c k := funext fun a => Fin.ext (by
    match a with
    | ⟨0, _⟩ => exact lhs_tbl_0 _ _
    | ⟨1, _⟩ => exact (lhs_tbl_1 _ _).trans hk)
  have er : Cert.KernelIdeal.dot_S16x4_S4x64_S16x64_1_0_0_1_n_n.rhsIdx (ix2 c q) ((ValueIdx.contrEquiv1 Cert.KernelIdeal.dot_S16x4_S4x64_S16x64_1_0_0_1_n_n 4 rfl rfl).symm k) = ix2 k q := funext fun a => Fin.ext (by
    match a with
    | ⟨0, _⟩ => exact (rhs_tbl_0 _ _).trans hk
    | ⟨1, _⟩ => exact rhs_tbl_1 _ _)
  rw [el, er]

/-- The last 4 rows of the weight: row k of the slice is row 128 + k of the weight. -/
private theorem w1b_apply (k : Fin 4) (q : Fin 64) :
    extractStridedSlice S4x64 ![128, 0] x5 slices_S132x64_S4x64_128_0 (ix2 k q)
      = x5 (ix2 (⟨128 + k.val, by omega⟩ : Fin 132) q) :=
  extractStridedSlice_apply ![128, 0] x5 slices_S132x64_S4x64_128_0 (ix2 k q) (ix2 (⟨128 + k.val, by omega⟩ : Fin 132) q) (fun a => match a with
    | ⟨0, _⟩ => by show 128 + k.val = 128 + k.val; rfl
    | ⟨1, _⟩ => by show q.val = 0 + q.val; omega)

/-- The first 128 rows of the weight: row k of the slice is row k of the weight. -/
private theorem w1a_apply (k : Fin 128) (q : Fin 64) :
    w1a x5 (ix2 k q) = x5 (ix2 (⟨k.val, by omega⟩ : Fin 132) q) :=
  extractStridedSlice_apply ![0, 0] x5 slices_S132x64_S128x64_0_0 (ix2 k q) (ix2 (⟨k.val, by omega⟩ : Fin 132) q) (fun a => match a with
    | ⟨0, _⟩ => by show k.val = 0 + k.val; omega
    | ⟨1, _⟩ => by show q.val = 0 + q.val; omega)

/-- The kernel's table T = table · W1[128:] at (c, q). -/
private theorem tbl_apply (c : Fin 16) (q : Fin 64) :
    tbl x4 x5 (ix2 c q) = ∑ k : Fin 4, x4 (ix2 c k) * x5 (ix2 (⟨128 + k.val, by omega⟩ : Fin 132) q) := by
  unfold tbl
  rw [dot_16_4_64_apply]
  refine Finset.sum_congr rfl fun k _ => ?_
  rw [w1b_apply]

/-! ## The reference's concatenated row [x | table[id]] read at an index -/

/-- The wrapped id the reference looks up: a negative id plus 16. -/
private theorem v13_apply (m : Fin 50000) : val_main_v13 (F := Ideal) x1 (ix1 m) = wrapId (x1 (ix1 m)) := by
  rw [val_main_v13_apply, val_main_v10_apply, val_main_v12_apply, val_main_v9_apply, val_main_v11_apply,
    val_main_c_apply, val_main_c_0_apply]
  rfl

/-- Columns below 128 of the concatenated row are the features. -/
private theorem v16_left (m : Fin 50000) (k : Fin 128) :
    val_main_v16 (F := Ideal) x0 x1 x4 (ix2 m (⟨k.val, by omega⟩ : Fin 132)) = x0 (ix2 m k) := by
  unfold val_main_v16
  generalize val_main_v15 (F := Ideal) x1 x4 = y
  exact concatenate_pair_apply_left (1 : Fin 2) x0 y Cert.ReferenceIdeal.Gen.concatenates_S50000x128_S50000x4_S50000x132_d1
    (ix2 m (⟨k.val, by omega⟩ : Fin 132)) rfl (ix2 m k) (fun b => match b with
      | ⟨0, _⟩ => rfl
      | ⟨1, _⟩ => rfl)

/-- Columns 128 … 131 of the concatenated row are the table's row at the wrapped id, clamped into the table. -/
private theorem v16_right (m : Fin 50000) (k : Fin 4) :
    val_main_v16 (F := Ideal) x0 x1 x4 (ix2 m (⟨128 + k.val, by omega⟩ : Fin 132))
      = x4 (ix2 (clampRow 16 (by decide) (wrapId (x1 (ix1 m)))) k) := by
  unfold val_main_v16
  generalize hy : val_main_v15 (F := Ideal) x1 x4 = y
  rw [concatenate_pair_apply_right (1 : Fin 2) x0 y Cert.ReferenceIdeal.Gen.concatenates_S50000x128_S50000x4_S50000x132_d1
    (ix2 m (⟨128 + k.val, by omega⟩ : Fin 132)) rfl rfl (ix2 m k) (fun b hb => match b, hb with
      | ⟨0, _⟩, _ => rfl
      | ⟨1, _⟩, hb => absurd rfl hb) (by show k.val + 128 = 128 + k.val; omega)]
  rw [← hy]
  unfold val_main_v15
  rw [gather_rows_apply (by decide) Cert.ReferenceIdeal.gather_S16x4_S50000x1_S50000x4_1_0_n_n_0_1_14 rfl rfl rfl rfl rfl rfl
    x4 (val_main_v14 (F := Ideal) x1) m k, val_main_v14_apply]
  rw [show idx_main_v14 (ix2 m (0 : Fin 1)) = ix1 m from funext fun a => Fin.ext (by match a with | ⟨0, _⟩ => rfl), v13_apply]

/-- The kernel's layer-1 array is the reference's product, scaled by the node's factor. -/
theorem dense1_eq (m : Fin 50000) (q : Fin 64) :
    Cert.Gcn.dense1 x0 (cidcol x1) (tbl x4 x5) (w1a x5) (dcol x2 x3) (ix2 m q)
      = val_main_v40 (F := Ideal) x0 x1 x4 x5 (ix2 m q) * dinv x2 x3 (ix1 m) := by
  have hl : ∀ k : Fin 132, lidx_main_v40 (ix2 m q) k = ix2 m k := fun k => funext fun a => Fin.ext (by
    match a with
    | ⟨0, _⟩ => rfl
    | ⟨1, _⟩ => rfl)
  have hr : ∀ k : Fin 132, ridx_main_v40 (ix2 m q) k = ix2 k q := fun k => funext fun a => Fin.ext (by
    match a with
    | ⟨0, _⟩ => rfl
    | ⟨1, _⟩ => rfl)
  rw [dense1_apply, dcol_apply, cidcol_apply,
    embed_row x0 (x1 (ix1 m)) x4 x5 (tbl x4 x5) (w1a x5) (val_main_v16 (F := Ideal) x0 x1 x4) m q
      (fun c => tbl_apply x4 x5 c q) (fun k => w1a_apply x5 k q) (fun k => v16_left x0 x1 x4 m k)
      (fun k => v16_right x0 x1 x4 m k),
    val_main_v40_apply]
  congr 1
  refine Finset.sum_congr rfl fun k _ => ?_
  rw [hl, hr]

end Cert.Bridge

end
-- ==== Proof.Bounds.lean ====
/-
  The normalisation factor dinv is never negative and never ⊤: it is the reciprocal square root of a positive
  extended real — a positive real, or 0 at ⊤ — or it is 0.
-/
import proofs.«413241_j45346264711627_3_alg».proof.Proof.KHost
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.HostVal
open Idealize.ShloMosaic Idealize.ShloMosaic.ValueIdx Cert.Gcn

variable (x0 : FVec Ideal S50000x128 .f32) (x1 : IVec S50000 32) (x2 : IVec S2x1600000 32) (x3 : FVec Ideal S1600000 .f32)
  (x4 : FVec Ideal S16x4 .f32) (x5 : FVec Ideal S132x64 .f32) (x6 : FVec Ideal S64 .f32) (x7 : FVec Ideal S64x32 .f32)
  (x8 : FVec Ideal S32 .f32)

/-! ## The factor is never negative and never ⊤ -/

theorem rsqrt_nonneg_of_pos {y : EReal} (hy : 0 < y) : 0 ≤ Ideal.rsqrt y := by
  induction y using EReal.rec with
  | bot => exact absurd hy (by simp)
  | top => simp
  | coe r =>
    have hr : 0 < r := by exact_mod_cast hy
    rw [Ideal.rsqrt_coe, if_neg (not_lt.mpr hr.le), if_neg hr.ne']
    exact_mod_cast inv_nonneg.mpr (Real.sqrt_nonneg r)
theorem rsqrt_ne_top_of_pos {y : EReal} (hy : 0 < y) : Ideal.rsqrt y ≠ ⊤ := by
  induction y using EReal.rec with
  | bot => exact absurd hy (by simp)
  | top => simp
  | coe r =>
    have hr : 0 < r := by exact_mod_cast hy
    rw [Ideal.rsqrt_coe, if_neg (not_lt.mpr hr.le), if_neg hr.ne']
    exact EReal.coe_ne_top _

/-- "rsqrt where positive, else 0" read at an index, for any vector in place of the degree. -/
theorem select_rsqrt_apply (dg : FVec Ideal S50000 .f32) (i : S50000.Idx) :
    select (cmpf .ogt dg (broadcastInDim S50000 ![] bcast_S_S50000 (constant (F := Ideal) S_ .f32 0x00000000#32)))
        (Host.rsqrt dg) (broadcastInDim S50000 ![] bcast_S_S50000 (id (constant (F := Ideal) S_ .f32 0x00000000#32))) i
      = if 0 < dg i then Ideal.rsqrt (dg i) else 0 := by
  have hz : broadcastInDim S50000 ![] bcast_S_S50000 (constant (F := Ideal) S_ .f32 0x00000000#32) i = 0 := Ideal.ofBits_zero_f32
  have hz' : broadcastInDim S50000 ![] bcast_S_S50000 (id (constant (F := Ideal) S_ .f32 0x00000000#32)) i = 0 := Ideal.ofBits_zero_f32
  rw [select_apply, cmpf_apply, hz, hz']
  have hr : Host.rsqrt dg i = Ideal.rsqrt (dg i) := rfl
  rw [hr, Ideal.cmpf_def]
  by_cases h : 0 < dg i
  · rw [if_pos h]
    have : Ideal.cmp .ogt (dg i) 0 = 1#1 := by simp only [Ideal.cmp, h, decide_true, BitVec.ofBool_true]; rfl
    rw [this]; rfl
  · rw [if_neg h]
    have : Ideal.cmp .ogt (dg i) 0 = 0#1 := by simp only [Ideal.cmp, h, decide_false, BitVec.ofBool_false]; rfl
    rw [this]; rfl

theorem dinv_apply (i : S50000.Idx) :
    dinv x2 x3 i = if 0 < deg x2 x3 i then Ideal.rsqrt (deg x2 x3 i) else 0 := by
  unfold dinv
  exact select_rsqrt_apply (deg x2 x3) i

theorem dinv_nonneg (i : S50000.Idx) : 0 ≤ dinv x2 x3 i := by
  rw [dinv_apply]; split
  · exact rsqrt_nonneg_of_pos ‹_›
  · exact le_refl _
theorem dinv_ne_top (i : S50000.Idx) : dinv x2 x3 i ≠ ⊤ := by
  rw [dinv_apply]; split
  · exact rsqrt_ne_top_of_pos ‹_›
  · exact EReal.zero_ne_top

end Cert.Bridge

end
-- ==== Proof.Reads.lean ====
/-
  The broadcasts of the aggregation read at an index: a zero table is 0 everywhere; a per-edge vector laid along the
  channels reads the vector at the edge; a column of node indices reads the index at the edge, and wrapping leaves a
  non-negative index alone.
-/
import proofs.«413241_j45346264711627_3_alg».proof.Proof.KHost
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.HostVal
open Idealize.ShloMosaic Idealize.ShloMosaic.ValueIdx Cert.Gcn

variable (x0 : FVec Ideal S50000x128 .f32) (x1 : IVec S50000 32) (x2 : IVec S2x1600000 32) (x3 : FVec Ideal S1600000 .f32)
  (x4 : FVec Ideal S16x4 .f32) (x5 : FVec Ideal S132x64 .f32) (x6 : FVec Ideal S64 .f32) (x7 : FVec Ideal S64x32 .f32)
  (x8 : FVec Ideal S32 .f32)

/-! ## Reading the broadcasts -/

theorem zero64 (i : S50000x64.Idx) : broadcastInDim S50000x64 ![] bcast_S_S50000x64 (constant (F := Ideal) S_ .f32 0x00000000#32) i = 0 :=
  Ideal.ofBits_zero_f32
theorem zero32 (i : S50000x32.Idx) : broadcastInDim S50000x32 ![] bcast_S_S50000x32 (constant (F := Ideal) S_ .f32 0x00000000#32) i = 0 :=
  Ideal.ofBits_zero_f32

theorem bcol_apply {α : Type} (v : S1650000.Idx → α) (e : Fin 1650000) :
    broadcastInDim S1650000x1 ![0] bcast_S1650000_S1650000x1_0 v (ix2 e (0 : Fin 1)) = v (ix1 e) :=
  broadcastInDim_apply _ bcast_S1650000_S1650000x1_0 v (ix2 e (0 : Fin 1)) (ix1 e) (fun a => match a with
    | ⟨0, _⟩ => by show e.val = if (1650000 : Nat) = 1 then 0 else e.val; rw [if_neg (by decide)])
theorem brow64_apply {α : Type} (v : S1650000.Idx → α) (e : Fin 1650000) (q : Fin 64) :
    broadcastInDim S1650000x64 ![0, 1] bcast_S1650000x1_S1650000x64_0_1 (broadcastInDim S1650000x1 ![0] bcast_S1650000_S1650000x1_0 v) (ix2 e q) = v (ix1 e) :=
  (broadcastInDim_apply _ bcast_S1650000x1_S1650000x64_0_1 _ (ix2 e q) (ix2 e (0 : Fin 1)) (fun a => match a with
    | ⟨0, _⟩ => by show e.val = if (1650000 : Nat) = 1 then 0 else e.val; rw [if_neg (by decide)]
    | ⟨1, _⟩ => by show (0 : Nat) = if (1 : Nat) = 1 then 0 else q.val; rw [if_pos rfl])).trans (bcol_apply v e)
theorem brow32_apply {α : Type} (v : S1650000.Idx → α) (e : Fin 1650000) (q : Fin 32) :
    broadcastInDim S1650000x32 ![0, 1] bcast_S1650000x1_S1650000x32_0_1 (broadcastInDim S1650000x1 ![0] bcast_S1650000_S1650000x1_0 v) (ix2 e q) = v (ix1 e) :=
  (broadcastInDim_apply _ bcast_S1650000x1_S1650000x32_0_1 _ (ix2 e q) (ix2 e (0 : Fin 1)) (fun a => match a with
    | ⟨0, _⟩ => by show e.val = if (1650000 : Nat) = 1 then 0 else e.val; rw [if_neg (by decide)]
    | ⟨1, _⟩ => by show (0 : Nat) = if (1 : Nat) = 1 then 0 else q.val; rw [if_pos rfl])).trans (bcol_apply v e)

/-- Wrapping leaves a non-negative index alone. -/
theorem wrapCol_of_nonneg (r : IVec S1650000 32) (e : Fin 1650000)
    (h : 0 ≤ (broadcastInDim S1650000x1 ![0] bcast_S1650000_S1650000x1_0 r (ix2 e (0 : Fin 1))).toInt) :
    wrapCol r (ix2 e (0 : Fin 1)) = broadcastInDim S1650000x1 ![0] bcast_S1650000_S1650000x1_0 r (ix2 e (0 : Fin 1)) := by
  rw [bcol_apply] at h ⊢
  unfold wrapCol
  rw [bcol_apply, select_apply]
  have hc : cmpi .slt r (broadcastInDim S1650000 ![] bcast_S_S1650000 (constantI S_ 32 0#32)) (ix1 e) = 0#1 := by
    show IntOp.cmpi .slt (r (ix1 e)) 0#32 = 0#1
    have hlt : ¬ (r (ix1 e)).toInt < 0 := not_lt.mpr h
    simp [IntOp.cmpi, BitVec.slt, hlt]
  rw [hc]
  rfl

end Cert.Bridge

end
-- ==== Proof.Aggregate.lean ====
/-
  The aggregation step with the normalisation factor pulled out of the sum.

  A row scatter-add sums, into table entry (n, q), the updates (e, q) whose start index is the row n.
  If on every update that lands on row r one family of updates is the factor d r times the other, then
  the scattered sums differ by the factor d n at (n, q).  Over the extended reals multiplication by d n
  distributes over the sum because 0 ≤ d n < ⊤ (a non-negative finite factor distributes over any sum
  of extended reals, infinite terms and sign changes included), so nothing is asked of the updates.
-/
import proofs.«413241_j45346264711627_3_alg».proof.Proof.LibRows
import Idealize.ShloMosaic.PureOps.Ideal
import Idealize.ShloMosaic.Lib.ValueIdx

noncomputable section

open scoped BigOperators

namespace Cert.Gcn

open Idealize.ShloMosaic Idealize.ShloMosaic.ValueIdx Cert.LibRows

/-- A non-negative factor other than ⊤ distributes over a finite sum of extended reals. -/
theorem mul_sum_of_nonneg_ne_top {ι : Type} (s : Finset ι) (f : ι → EReal) (a : EReal) (h0 : 0 ≤ a) (ht : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- The factor of the row an update lands on, pulled out of a row scatter-add into a zero table. -/
theorem aggregate {N E K : Nat}
    (dS : ScatterDims ⟨2, ![N, K]⟩ ⟨2, ![E, 1]⟩ ⟨2, ![E, K]⟩)
    (huw : dS.updateWindowDims = [1]) (hiw : dS.insertedWindowDims = [0]) (hsd : dS.scatterDimsToOperandDims = [0])
    (hivd : dS.indexVectorDim = 1)
    (d : Fin N → EReal) (hd0 : ∀ n, 0 ≤ d n) (hdT : ∀ n, d n ≠ ⊤)
    (col : IVec ⟨2, ![E, 1]⟩ 32)
    (z z' : (⟨2, ![N, K]⟩ : Shape).Idx → EReal) (hz : ∀ i, z i = 0) (hz' : ∀ i, z' i = 0)
    (U U' : (⟨2, ![E, K]⟩ : Shape).Idx → EReal)
    (hU : ∀ (e : Fin E) (q : Fin K) (r : Fin N), (col (ix2 e (0 : Fin 1))).toInt = (r.val : Int) →
      U' (ix2 e q) = d r * U (ix2 e q))
    (n : Fin N) (q : Fin K) :
    d n * Ideal.hostScatterAdd dS z col U (ix2 n q) = Ideal.hostScatterAdd dS z' col U' (ix2 n q) := by
  unfold Ideal.hostScatterAdd
  rw [hz, hz', zero_add, zero_add, mul_sum_of_nonneg_ne_top _ _ _ (hd0 n) (hdT n)]
  refine Finset.sum_congr rfl fun j hj => ?_
  obtain ⟨e, q₁, rfl⟩ : ∃ (e : Fin E) (q₁ : Fin K), j = ix2 e q₁ := ⟨j 0, j 1, eq_ix2 j⟩
  have hland := (scatter_rows_result dS huw hiw hsd hivd col e q₁ n q).mp (Finset.mem_filter.mp hj).2
  exact (hU e q₁ n hland.1).symm

end Cert.Gcn

end
-- ==== Proof.Layer.lean ====
/-
  One graph-convolution aggregation, the two ways the two programs write it.

  With r(e), c(e) the (wrapped, clamped) source and target node of edge e, w(e) its weight and d the
  normalisation factor per node, the reference sums  B[r(e), q] · ((d[r(e)] · w(e)) · d[c(e)])  over the
  edges whose target is n, and the kernel sums  A[r(e), q] · w(e)  with  A[m, q] = B[m, q] · d[m]
  already scaled, and multiplies the sum by d[n] afterwards.  An edge contributes to node n only when
  its target index, read signed, IS n; a target index that is a row is not negative, so wrapping leaves it
  alone and clamping it gives n: d[c(e)] = d[n] on every edge of the sum.  The terms then agree up to
  the order of the factors, and d[n] comes out of the sum because 0 ≤ d[n] < ⊤.
-/
import proofs.«413241_j45346264711627_3_alg».proof.Proof.LibRows
import proofs.«413241_j45346264711627_3_alg».proof.Proof.Aggregate
import Idealize.ShloMosaic.PureOps.Ideal
import Idealize.ShloMosaic.Lib.ValueIdx

noncomputable section

open scoped BigOperators

namespace Cert.Gcn

open Idealize.ShloMosaic Idealize.ShloMosaic.ValueIdx Cert.LibRows

/-- The kernel's aggregation, times the target node's factor, is the reference's aggregation. -/
theorem layer_pull {N E K : Nat} (hN : 0 < N)
    (dS : ScatterDims ⟨2, ![N, K]⟩ ⟨2, ![E, 1]⟩ ⟨2, ![E, K]⟩)
    (huw : dS.updateWindowDims = [1]) (hiw : dS.insertedWindowDims = [0]) (hsd : dS.scatterDimsToOperandDims = [0])
    (hsivd : dS.indexVectorDim = 1)
    (dG : GatherDims ⟨2, ![N, K]⟩ ⟨2, ![E, 1]⟩ ⟨2, ![E, K]⟩)
    (hoff : dG.offsetDims = [1]) (hcoll : dG.collapsedSliceDims = [0]) (hob : dG.operandBatchingDims = [])
    (hsb : dG.startIndicesBatchingDims = []) (hsim : dG.startIndexMap = [0]) (hivd : dG.indexVectorDim = 1)
    (d1 : GatherDims ⟨1, ![N]⟩ ⟨2, ![E, 1]⟩ ⟨1, ![E]⟩)
    (hcoll1 : d1.collapsedSliceDims = [0]) (hob1 : d1.operandBatchingDims = [])
    (hsim1 : d1.startIndexMap = [0]) (hivd1 : d1.indexVectorDim = 1)
    (dinv : (⟨1, ![N]⟩ : Shape).Idx → EReal) (hd0 : ∀ n, 0 ≤ dinv n) (hdT : ∀ n, dinv n ≠ ⊤)
    (A B : (⟨2, ![N, K]⟩ : Shape).Idx → EReal) (hAB : ∀ (m : Fin N) (q : Fin K), A (ix2 m q) = B (ix2 m q) * dinv (ix1 m))
    (colB colW rowW : IVec ⟨2, ![E, 1]⟩ 32)
    (hcol : ∀ e : Fin E, 0 ≤ (colB (ix2 e (0 : Fin 1))).toInt → colW (ix2 e (0 : Fin 1)) = colB (ix2 e (0 : Fin 1)))
    (w : (⟨1, ![E]⟩ : Shape).Idx → EReal)
    (wB nB : (⟨2, ![E, K]⟩ : Shape).Idx → EReal)
    (hwB : ∀ (e : Fin E) (q : Fin K), wB (ix2 e q) = w (ix1 e))
    (hnB : ∀ (e : Fin E) (q : Fin K), nB (ix2 e q)
      = (Host.gather d1 dinv rowW (ix1 e) * w (ix1 e)) * Host.gather d1 dinv colW (ix1 e))
    (z z' : (⟨2, ![N, K]⟩ : Shape).Idx → EReal) (hz : ∀ i, z i = 0) (hz' : ∀ i, z' i = 0)
    (n : Fin N) (q : Fin K) :
    dinv (ix1 n) * Ideal.hostScatterAdd dS z colB (fun j => Host.gather dG A rowW j * wB j) (ix2 n q)
      = Ideal.hostScatterAdd dS z' colB (fun j => Host.gather dG B rowW j * nB j) (ix2 n q) := by
  refine aggregate dS huw hiw hsd hsivd (fun m => dinv (ix1 m)) (fun m => hd0 _) (fun m => hdT _) colB z z' hz hz'
    (fun j => Host.gather dG A rowW j * wB j) (fun j => Host.gather dG B rowW j * nB j) ?_ n q
  intro e q₁ r hr
  have hnn : 0 ≤ (colB (ix2 e (0 : Fin 1))).toInt := by rw [hr]; exact Int.natCast_nonneg _
  have hA := gather_rows_apply hN dG hoff hcoll hob hsb hsim hivd A rowW e q₁
  have hB := gather_rows_apply hN dG hoff hcoll hob hsb hsim hivd B rowW e q₁
  have h1r := gather_take_apply1 hN d1 hcoll1 hob1 hsim1 hivd1 dinv rowW e
  have h1c := gather_take_apply1 hN d1 hcoll1 hob1 hsim1 hivd1 dinv colW e
  have hc : clampRow N hN (colW (ix2 e (0 : Fin 1))) = r := by
    rw [hcol e hnn]; exact clampRow_of_toInt hN _ r hr
  rw [hA, hB, hnB, hwB, hAB, h1r, h1c, hc]
  have key : ∀ x y z u : EReal, x * ((y * z) * u) = u * ((x * y) * z) := by
    intro x y z u
    rw [mul_comm u, mul_assoc (x * y), mul_assoc x, mul_assoc y]
  exact key _ _ _ _

end Cert.Gcn

end
-- ==== Proof.Pull.lean ====
/-
  The aggregation law at this program's records and sizes: 50000 nodes, 1650000 edges (self-loops included),
  64 channels after the first layer and 32 after the second.
-/
import proofs.«413241_j45346264711627_3_alg».proof.Proof.Shared
import proofs.«413241_j45346264711627_3_alg».proof.Proof.Bounds
import proofs.«413241_j45346264711627_3_alg».proof.Proof.Reads
import proofs.«413241_j45346264711627_3_alg».proof.Proof.Layer

set_option maxRecDepth 16384

noncomputable section

namespace Cert.Bridge

open Cert.KernelIdeal Cert.KernelIdeal.Gen Cert.KernelIdeal.HostVal Cert.ReferenceIdeal.Read
open Idealize.ShloMosaic Idealize.ShloMosaic.ValueIdx Cert.LibRows Cert.Gcn

variable (x2 : IVec S2x1600000 32) (x3 : FVec Ideal S1600000 .f32)

/-- The reference's per-edge coefficient at an edge: dinv at the source, times the weight, times dinv at the target. -/
theorem norm_apply (e : Fin 1650000) :
    norm x2 x3 (ix1 e)
      = (Host.gather Cert.ReferenceIdeal.gather_S50000_S1650000x1_S1650000_n_0_n_n_0_1_1 (dinv x2 x3) (wrapCol (rowI x2)) (ix1 e) * wts x3 (ix1 e))
        * Host.gather Cert.ReferenceIdeal.gather_S50000_S1650000x1_S1650000_n_0_n_n_0_1_1 (dinv x2 x3) (wrapCol (colI x2)) (ix1 e) := by
  unfold norm
  rw [mulf_apply, mulf_apply]

/-- A host scatter-add of a pointwise product, in the form the aggregation law is stated in. -/
theorem scatterAdd_mulf64 (z : FVec Ideal S50000x64 .f32) (col : IVec S1650000x1 32) (a b : FVec Ideal S1650000x64 .f32) :
    Host.scatterAdd scatter_S50000x64_S1650000x1_S1650000x64_1_0_0_1 z col (mulf a b)
      = Ideal.hostScatterAdd scatter_S50000x64_S1650000x1_S1650000x64_1_0_0_1 z col (fun j => a j * b j) := rfl

/-- The kernel's 64-channel aggregate of a scaled array, times the target node's factor, is the reference's aggregate of the
    unscaled array with the per-edge coefficient. -/
theorem pull64 (A B : FVec Ideal S50000x64 .f32)
    (hAB : ∀ (m : Fin 50000) (q : Fin 64), A (ix2 m q) = B (ix2 m q) * dinv x2 x3 (ix1 m)) (n : Fin 50000) (q : Fin 64) :
    dinv x2 x3 (ix1 n) * agg64 A (rowI x2) (colI x2) (wts x3) (ix2 n q) = refAgg64 B x2 x3 (ix2 n q) := by
  unfold agg64 refAgg64
  rw [scatterAdd_mulf64, scatterAdd_mulf64]
  have hcol : ∀ e : Fin 1650000,
      0 ≤ (broadcastInDim S1650000x1 ![0] bcast_S1650000_S1650000x1_0 (colI x2) (ix2 e (0 : Fin 1))).toInt →
      wrapCol (colI x2) (ix2 e (0 : Fin 1)) = broadcastInDim S1650000x1 ![0] bcast_S1650000_S1650000x1_0 (colI x2) (ix2 e (0 : Fin 1)) :=
    fun e h => wrapCol_of_nonneg (colI x2) e h
  have hwB : ∀ (e : Fin 1650000) (q : Fin 64),
      broadcastInDim S1650000x64 ![0, 1] bcast_S1650000x1_S1650000x64_0_1 (broadcastInDim S1650000x1 ![0] bcast_S1650000_S1650000x1_0 (wts x3)) (ix2 e q)
        = wts x3 (ix1 e) := fun e q => brow64_apply (wts x3) e q
  have hnB : ∀ (e : Fin 1650000) (q : Fin 64),
      broadcastInDim S1650000x64 ![0, 1] bcast_S1650000x1_S1650000x64_0_1 (broadcastInDim S1650000x1 ![0] bcast_S1650000_S1650000x1_0 (norm x2 x3)) (ix2 e q)
        = (Host.gather Cert.ReferenceIdeal.gather_S50000_S1650000x1_S1650000_n_0_n_n_0_1_1 (dinv x2 x3) (wrapCol (rowI x2)) (ix1 e) * wts x3 (ix1 e))
          * Host.gather Cert.ReferenceIdeal.gather_S50000_S1650000x1_S1650000_n_0_n_n_0_1_1 (dinv x2 x3) (wrapCol (colI x2)) (ix1 e) :=
    fun e q => (brow64_apply (norm x2 x3) e q).trans (norm_apply x2 x3 e)
  have L3 := @layer_pull 50000 1650000 64 (by decide)
    scatter_S50000x64_S1650000x1_S1650000x64_1_0_0_1 rfl rfl rfl rfl
    gather_S50000x64_S1650000x1_S1650000x64_1_0_n_n_0_1_164 rfl rfl rfl rfl rfl rfl
    Cert.ReferenceIdeal.gather_S50000_S1650000x1_S1650000_n_0_n_n_0_1_1 rfl rfl rfl rfl
  have L4 := L3 (dinv x2 x3) (dinv_nonneg x2 x3) (dinv_ne_top x2 x3) A B hAB
  have L5 := L4 (broadcastInDim S1650000x1 ![0] bcast_S1650000_S1650000x1_0 (colI x2)) (wrapCol (colI x2)) (wrapCol (rowI x2))
  have L6 := L5 hcol
  have L7 := L6 (wts x3)
  have L8 := L7
    (broadcastInDim S1650000x64 ![0, 1] bcast_S1650000x1_S1650000x64_0_1 (broadcastInDim S1650000x1 ![0] bcast_S1650000_S1650000x1_0 (wts x3)))
    (broadcastInDim S1650000x64 ![0, 1] bcast_S1650000x1_S1650000x64_0_1 (broadcastInDim S1650000x1 ![0] bcast_S1650000_S1650000x1_0 (norm x2 x3)))
  have L9 := L8 hwB
  have L10 := L9 hnB
  have L11 := L10
    (broadcastInDim S50000x64 ![] bcast_S_S50000x64 (constant (F := Ideal) S_ .f32 0x00000000#32))
    (broadcastInDim S50000x64 ![] bcast_S_S50000x64 (constant (F := Ideal) S_ .f32 0x00000000#32))
  have L12 := L11 zero64 zero64
  exact L12 n q

/-- A host scatter-add of a pointwise product, in the form the aggregation law is stated in. -/
theorem scatterAdd_mulf32 (z : FVec Ideal S50000x32 .f32) (col : IVec S1650000x1 32) (a b : FVec Ideal S1650000x32 .f32) :
    Host.scatterAdd scatter_S50000x32_S1650000x1_S1650000x32_1_0_0_1 z col (mulf a b)
      = Ideal.hostScatterAdd scatter_S50000x32_S1650000x1_S1650000x32_1_0_0_1 z col (fun j => a j * b j) := rfl

/-- The kernel's 32-channel aggregate of a scaled array, times the target node's factor, is the reference's aggregate of the
    unscaled array with the per-edge coefficient. -/
theorem pull32 (A B : FVec Ideal S50000x32 .f32)
    (hAB : ∀ (m : Fin 50000) (q : Fin 32), A (ix2 m q) = B (ix2 m q) * dinv x2 x3 (ix1 m)) (n : Fin 50000) (q : Fin 32) :
    dinv x2 x3 (ix1 n) * agg32 A (rowI x2) (colI x2) (wts x3) (ix2 n q) = refAgg32 B x2 x3 (ix2 n q) := by
  unfold agg32 refAgg32
  rw [scatterAdd_mulf32, scatterAdd_mulf32]
  have hcol : ∀ e : Fin 1650000,
      0 ≤ (broadcastInDim S1650000x1 ![0] bcast_S1650000_S1650000x1_0 (colI x2) (ix2 e (0 : Fin 1))).toInt →
      wrapCol (colI x2) (ix2 e (0 : Fin 1)) = broadcastInDim S1650000x1 ![0] bcast_S1650000_S1650000x1_0 (colI x2) (ix2 e (0 : Fin 1)) :=
    fun e h => wrapCol_of_nonneg (colI x2) e h
  have hwB : ∀ (e : Fin 1650000) (q : Fin 32),
      broadcastInDim S1650000x32 ![0, 1] bcast_S1650000x1_S1650000x32_0_1 (broadcastInDim S1650000x1 ![0] bcast_S1650000_S1650000x1_0 (wts x3)) (ix2 e q)
        = wts x3 (ix1 e) := fun e q => brow32_apply (wts x3) e q
  have hnB : ∀ (e : Fin 1650000) (q : Fin 32),
      broadcastInDim S1650000x32 ![0, 1] bcast_S1650000x1_S1650000x32_0_1 (broadcastInDim S1650000x1 ![0] bcast_S1650000_S1650000x1_0 (norm x2 x3)) (ix2 e q)
        = (Host.gather Cert.ReferenceIdeal.gather_S50000_S1650000x1_S1650000_n_0_n_n_0_1_1 (dinv x2 x3) (wrapCol (rowI x2)) (ix1 e) * wts x3 (ix1 e))
          * Host.gather Cert.ReferenceIdeal.gather_S50000_S1650000x1_S1650000_n_0_n_n_0_1_1 (dinv x2 x3) (wrapCol (colI x2)) (ix1 e) :=
    fun e q => (brow32_apply (norm x2 x3) e q).trans (norm_apply x2 x3 e)
  have L3 := @layer_pull 50000 1650000 32 (by decide)
    scatter_S50000x32_S1650000x1_S1650000x32_1_0_0_1 rfl rfl rfl rfl
    gather_S50000x32_S1650000x1_S1650000x32_1_0_n_n_0_1_132 rfl rfl rfl rfl rfl rfl
    Cert.ReferenceIdeal.gather_S50000_S1650000x1_S1650000_n_0_n_n_0_1_1 rfl rfl rfl rfl
  have L4 := L3 (dinv x2 x3) (dinv_nonneg x2 x3) (dinv_ne_top x2 x3) A B hAB
  have L5 := L4 (broadcastInDim S1650000x1 ![0] bcast_S1650000_S1650000x1_0 (colI x2)) (wrapCol (colI x2)) (wrapCol (rowI x2))
  have L6 := L5 hcol
  have L7 := L6 (wts x3)
  have L8 := L7
    (broadcastInDim S1650000x32 ![0, 1] bcast_S1650000x1_S1650000x32_0_1 (broadcastInDim S1650000x1 ![0] bcast_S1650000_S1650000x1_0 (wts x3)))
    (broadcastInDim S1650000x32 ![0, 1] bcast_S1650000x1_S1650000x32_0_1 (broadcastInDim S1650000x1 ![0] bcast_S1650000_S1650000x1_0 (norm x2 x3)))
  have L9 := L8 hwB
  have L10 := L9 hnB
  have L11 := L10
    (broadcastInDim S50000x32 ![] bcast_S_S50000x32 (constant (F := Ideal) S_ .f32 0x00000000#32))
    (broadcastInDim S50000x32 ![] bcast_S_S50000x32 (constant (F := Ideal) S_ .f32 0x00000000#32))
  have L12 := L11 zero32 zero32
  exact L12 n q
end Cert.Bridge

end
-- ==== Proof.Dense2.lean ====
/-
  Layer 2's dense stage on the two sides.  The kernel rescales its first aggregate by dinv, adds the bias, takes the
  positive part and multiplies by the second weight, then scales by dinv; the reference adds the bias to ITS first
  aggregate, takes the positive part and multiplies by the second weight.  The kernel's rescaled aggregate is the
  reference's aggregate (the aggregation law at 64 channels), so the two positive parts agree entry by entry and the
  kernel's entry is the reference's product times dinv at the node.
-/
import proofs.«413241_j45346264711627_3_alg».proof.Proof.Pull
import proofs.«413241_j45346264711627_3_alg».proof.Proof.Casts
import Idealize.ShloMosaic.Lib.Pipeline.Value
import Idealize.ShloMosaic.Lib.ValueIdx
import Idealize.ShloMosaic.PureOps.Ideal.Laws

set_option maxRecDepth 16384

noncomputable section

open scoped BigOperators

namespace Cert.Bridge

open Cert.KernelIdeal Cert.KernelIdeal.Gen Cert.KernelIdeal.HostVal Cert.ReferenceIdeal.Read
open Idealize.ShloMosaic Idealize.ShloMosaic.ValueIdx Cert.LibRows Cert.Gcn

variable (x0 : FVec Ideal S50000x128 .f32) (x1 : IVec S50000 32) (x2 : IVec S2x1600000 32) (x3 : FVec Ideal S1600000 .f32)
  (x4 : FVec Ideal S16x4 .f32) (x5 : FVec Ideal S132x64 .f32) (x6 : FVec Ideal S64 .f32) (x7 : FVec Ideal S64x32 .f32)
  (x8 : FVec Ideal S32 .f32)

/-- The kernel's layer-2 array is the reference's second product, scaled by the node's factor, whenever the kernel's
    layer-1 array `A` is the reference's first product scaled. -/
theorem dense2_eq (A : FVec Ideal S50000x64 .f32)
    (hA : ∀ (m : Fin 50000) (q : Fin 64), A (ix2 m q) = val_main_v40 (F := Ideal) x0 x1 x4 x5 (ix2 m q) * dinv x2 x3 (ix1 m))
    (m : Fin 50000) (q : Fin 32) :
    Cert.Gcn.dense2 (agg64 A (rowI x2) (colI x2) (wts x3)) (dcol x2 x3) (b1row x6) x7 (ix2 m q)
      = val_main_v81 (F := Ideal) x0 x1 x2 x3 x4 x5 x6 x7 (ix2 m q) * dinv x2 x3 (ix1 m) := by
  -- the reference's bias, positive part and zero, read at (m, k)
  have hbias : ∀ k : Fin 64, val_main_v55 (F := Ideal) x6 (ix2 m k) = x6 (ix1 k) := fun k => by
    rw [val_main_v55_apply, val_main_v54_apply]
    exact congrArg x6 (funext fun a => by match a with | ⟨0, _⟩ => rfl)
  have hzero : ∀ k : Fin 64, val_main_call1_v0 (F := Ideal) (ix2 m k) = 0 := fun k => by
    rw [val_main_call1_v0_apply, val_main_call1_cst_apply]
    exact Ideal.ofBits_zero_f32
  -- the reference's first aggregate at (m, k) is the kernel's, rescaled
  have hagg : ∀ k : Fin 64, val_main_v53 (F := Ideal) x0 x1 x2 x3 x4 x5 (ix2 m k)
      = agg64 A (rowI x2) (colI x2) (wts x3) (ix2 m k) * dinv x2 x3 (ix1 m) := fun k => by
    rw [ref_v53, ← pull64 x2 x3 A (val_main_v40 (F := Ideal) x0 x1 x4 x5) hA m k, mul_comm]
  have hl : ∀ k : Fin 64, lidx_main_v81 (ix2 m q) k = ix2 m k := fun k =>
    funext fun a => by match a with | ⟨0, _⟩ => rfl | ⟨1, _⟩ => rfl
  have hr : ∀ k : Fin 64, ridx_main_v81 (ix2 m q) k = ix2 k q := fun k =>
    funext fun a => by match a with | ⟨0, _⟩ => rfl | ⟨1, _⟩ => rfl
  rw [dense2_apply, dcol_apply, val_main_v81_apply]
  refine congrArg (· * dinv x2 x3 (ix1 m)) (Finset.sum_congr rfl fun k _ => ?_)
  rw [hl, hr, b1row_apply, val_main_v57_apply, val_main_v56_apply, hzero, hbias, hagg, Ideal.maximumf_def, Ideal.addf_def]

end Cert.Bridge

end
-- ==== Proof.Bridge.lean ====
/-
  The two programs compute the same function.  At node n and channel q the kernel's result is
  dinv[n] · (second aggregate of the scaled layer-2 array) + b2[q] and the reference's is (second aggregate with
  the per-edge coefficient) + b2[q]; the aggregation law at 32 channels, fed by the two dense-stage identities,
  makes the first summands equal.
-/
import proofs.«413241_j45346264711627_3_alg».proof.Proof.Dense1
import proofs.«413241_j45346264711627_3_alg».proof.Proof.Dense2
import proofs.«413241_j45346264711627_3_alg».proof.Proof.Pull
import proofs.«413241_j45346264711627_3_alg».proof.Proof.Casts
import Idealize.ShloMosaic.Lib.Pipeline.Value
import Idealize.ShloMosaic.Lib.ValueIdx
import Idealize.ShloMosaic.PureOps.Ideal.Laws

set_option maxRecDepth 16384

noncomputable section

open scoped BigOperators

namespace Cert.Bridge

open Cert.KernelIdeal Cert.KernelIdeal.Gen Cert.KernelIdeal.HostVal Cert.ReferenceIdeal.Read
open Idealize.ShloMosaic Idealize.ShloMosaic.ValueIdx Cert.LibRows Cert.Gcn

variable (x0 : FVec Ideal S50000x128 .f32) (x1 : IVec S50000 32) (x2 : IVec S2x1600000 32) (x3 : FVec Ideal S1600000 .f32)
  (x4 : FVec Ideal S16x4 .f32) (x5 : FVec Ideal S132x64 .f32) (x6 : FVec Ideal S64 .f32) (x7 : FVec Ideal S64x32 .f32)
  (x8 : FVec Ideal S32 .f32)

/-- The kernel program's result is the reference's, as functions of the nine arguments. -/
theorem kernelOut_eq :
    kernelOut x0 x1 x2 x3 x4 x5 x6 x7 x8 = val_main_v97 (F := Ideal) x0 x1 x2 x3 x4 x5 x6 x7 x8 := by
  funext i
  obtain ⟨n, q, rfl⟩ : ∃ (n : Fin 50000) (q : Fin 32), i = ix2 n q := ⟨i 0, i 1, eq_ix2 i⟩
  have hpull := pull32 x2 x3
    (Cert.Gcn.dense2 (agg64 (Cert.Gcn.dense1 x0 (cidcol x1) (tbl x4 x5) (w1a x5) (dcol x2 x3)) (rowI x2) (colI x2) (wts x3))
      (dcol x2 x3) (b1row x6) x7)
    (val_main_v81 (F := Ideal) x0 x1 x2 x3 x4 x5 x6 x7)
    (fun m q => dense2_eq x0 x1 x2 x3 x4 x5 x6 x7 _ (fun m q => dense1_eq x0 x1 x2 x3 x4 x5 m q) m q) n q
  unfold kernelOut
  have hi : idx_main_v95 (idx_main_v96 (ix2 n q)) = ix1 q := funext fun a => by match a with | ⟨0, _⟩ => rfl
  rw [finish_apply, dcol_apply, hpull, val_main_v97_apply, ref_v94, val_main_v96_apply, val_main_v95_apply, Ideal.addf_def, hi]

end Cert.Bridge

end
-- ==== Proof.lean ====
/-
  A two-layer graph convolution with symmetric normalisation, kernel against reference, over the extended reals.

  Each layer computes, per node n,  Σ_{edges e into n} (h W)[row e] · dinv[row e] · w[e] · dinv[n]  plus a bias,
  with self-loops appended to the edge list and dinv = deg^(-1/2) (0 where the weighted in-degree is not positive).
  The reference forms the per-edge coefficient dinv[row] · w · dinv[col] and scatters h W times it.  The kernel folds
  dinv[row] into the dense stage (two kernel regions: the first also replaces the concatenation [x | table[id]] · W1
  by x · W1[:128] + onehot(id) · (table · W1[128:]), the second adds the bias and takes the positive part before the
  second product), scatters with the edge weight alone, and multiplies by dinv[n] after the sum.

  The two agree on EVERY input, finite or not: the only law used beyond commutativity and associativity is that
  dinv[n] distributes over the scattered sum, and it does because 0 ≤ dinv[n] < ⊤ (a reciprocal square root of a
  positive extended real, or 0).  So the precondition is never opened.  An edge enters node n's sum only when its
  target index, read signed, is n itself, so the reference's clamped and wrapped lookup dinv[col e] is dinv[n] there.

  The frames of the two kernel programs are the generated ones; the reference's frame and value are its generated run.
  The kernel program's value is read off the same launch as its frame, boundary by boundary.
-/
import proofs.«413241_j45346264711627_3_alg».proof.Defs
import proofs.«413241_j45346264711627_3_alg».proof.Proof.Gen.Kernel
import proofs.«413241_j45346264711627_3_alg».proof.Proof.Gen.Kernel.Skeleton
import proofs.«413241_j45346264711627_3_alg».proof.Proof.Gen.Kernel.Launch
import proofs.«413241_j45346264711627_3_alg».proof.Proof.Gen.Kernel.Points
import proofs.«413241_j45346264711627_3_alg».proof.Proof.Gen.Kernel.Frame
import proofs.«413241_j45346264711627_3_alg».proof.Proof.Gen.KernelIdeal
import proofs.«413241_j45346264711627_3_alg».proof.Proof.Gen.KernelIdeal.Skeleton
import proofs.«413241_j45346264711627_3_alg».proof.Proof.Gen.KernelIdeal.Launch
import proofs.«413241_j45346264711627_3_alg».proof.Proof.Gen.KernelIdeal.Points
import proofs.«413241_j45346264711627_3_alg».proof.Proof.Gen.KernelIdeal.Frame
import proofs.«413241_j45346264711627_3_alg».proof.Proof.Gen.ReferenceIdeal
import proofs.«413241_j45346264711627_3_alg».proof.Proof.Gen.Pre_finite_inputs
import proofs.«413241_j45346264711627_3_alg».proof.Proof.Gen.ReferenceIdeal.Run
import proofs.«413241_j45346264711627_3_alg».proof.Proof.Gen.ReferenceIdeal.Read
import proofs.«413241_j45346264711627_3_alg».proof.Proof.KernelRun
import proofs.«413241_j45346264711627_3_alg».proof.Proof.KFold
import proofs.«413241_j45346264711627_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end, from memories agreeing on the arguments, with the same function of the arguments in their
    result buffers: the kernel's composed stages on one side, the reference's run on the other, equal index by index. -/
theorem algebraic : Cert.algebraic_KernelIdeal_ReferenceIdeal := by
  intro m ρ m' ρ' _ hagree
  refine ⟨fun c => Cert.KernelIdeal.HostVal.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.w7_v54 m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Bridge.kernelOut_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
